-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2x3200000 : Shape := ⟨2, ![2, 3200000]⟩
abbrev S100000 : Shape := ⟨1, ![100000]⟩
abbrev S30x30 : Shape := ⟨2, ![30, 30]⟩
abbrev S30 : Shape := ⟨1, ![30]⟩
abbrev S30x1 : Shape := ⟨2, ![30, 1]⟩
abbrev S1 : Shape := ⟨1, ![1]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S30x30 : S_.BroadcastsInDim S30x30 (![] : Fin 0 → Fin S30x30.rank)
  reducesTo_S30x30_S_d0_1 : S30x30.ReducesTo [0, 1] S_
  bcast_S_S30 : S_.BroadcastsInDim S30 (![] : Fin 0 → Fin S30.rank)
  reducesTo_S30_S_d0 : S30.ReducesTo [0] S_
  bcast_S_S30x1 : S_.BroadcastsInDim S30x1 (![] : Fin 0 → Fin S30x1.rank)
  reducesTo_S30x1_S_d0_1 : S30x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S30x1 .f32) (main_arg10 : FVec F S1 .f32) (main_v33 : IVec S_ 1) : IVec S_ 1 :=
  let main_v34 : FVec F S30x1 .f32 := Host.absf main_arg9
  let main_cst_12 : FVec F S_ .f32 := constant S_ .f32 0x7F800000#32
  let main_v35 : FVec F S30x1 .f32 := broadcastInDim S30x1 ![] bcast_S_S30x1 main_cst_12
  let main_v36 : IVec S30x1 1 := cmpf .olt main_v34 main_v35
  let main_c_13 : IVec S_ 1 := constantI S_ 1 1#1
  let main_v37 : IVec S_ 1 := (fun x v => Host.reduce IntOp.andi x v reducesTo_S30x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S30 .f32) (main_arg7 : FVec F S30x30 .f32) (main_arg8 : FVec F S30 .f32) (main_arg9 : FVec F S30x1 .f32) (main_arg10 : FVec F S1 .f32) (main_v13 : IVec S_ 1) (main_v16 : IVec S30x30 1) : IVec S_ 1 :=
  let main_c_5 : IVec S_ 1 := constantI S_ 1 1#1
  let main_v17 : IVec S_ 1 := (fun x v => Host.reduce IntOp.andi x v reducesTo_S30x30_S_d0_1 h_S_) main_v16 main_c_5
  let main_v18 : IVec S_ 1 := andi main_v13 main_v17
  let main_v19 : FVec F S30 .f32 := Host.absf main_arg6
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  let main_v24 : FVec F S30x30 .f32 := Host.absf main_arg7
  let main_cst_8 : FVec F S_ .f32 := constant S_ .f32 0x7F800000#32
  let main_v25 : FVec F S30x30 .f32 := broadcastInDim S30x30 ![] bcast_S_S30x30 main_cst_8
  let main_v26 : IVec S30x30 1 := cmpf .olt main_v24 main_v25
  let main_c_9 : IVec S_ 1 := constantI S_ 1 1#1
  let main_v27 : IVec S_ 1 := (fun x v => Host.reduce IntOp.andi x v reducesTo_S30x30_S_d0_1 h_S_) main_v26 main_c_9
  let main_v28 : IVec S_ 1 := andi main_v23 main_v27
  let main_v29 : FVec F S30 .f32 := Host.absf main_arg8
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg9 main_arg10 main_v33

def fn {F : FTy → Type} [FloatOps F] (main_arg0 : FVec F S100000x30 .f32) (main_arg1 : IVec S2x3200000 32) (main_arg2 : IVec S100000 32) (main_arg3 : FVec F S30x30 .f32) (main_arg4 : FVec F S30 .f32) (main_arg5 : FVec F S30x30 .f32) (main_arg6 : FVec F S30 .f32) (main_arg7 : FVec F S30x30 .f32) (main_arg8 : FVec F S30 .f32) (main_arg9 : FVec F S30x1 .f32) (main_arg10 : FVec F S1 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S30x30 .f32 := Host.absf main_arg3
  let main_cst_0 : FVec F S_ .f32 := constant S_ .f32 0x7F800000#32
  let main_v5 : FVec F S30x30 .f32 := broadcastInDim S30x30 ![] bcast_S_S30x30 main_cst_0
  let main_v6 : IVec S30x30 1 := cmpf .olt main_v4 main_v5
  let main_c_1 : IVec S_ 1 := constantI S_ 1 1#1
  let main_v7 : IVec S_ 1 := (fun x v => Host.reduce IntOp.andi x v reducesTo_S30x30_S_d0_1 h_S_) main_v6 main_c_1
  let main_v8 : IVec S_ 1 := andi main_v3 main_v7
  let main_v9 : FVec F S30 .f32 := Host.absf main_arg4
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_v14 : FVec F S30x30 .f32 := Host.absf main_arg5
  let main_cst_4 : FVec F S_ .f32 := constant S_ .f32 0x7F800000#32
  let main_v15 : FVec F S30x30 .f32 := broadcastInDim S30x30 ![] bcast_S_S30x30 main_cst_4
  let main_v16 : IVec S30x30 1 := cmpf .olt main_v14 main_v15
  fn_part1 (F := F) main_arg6 main_arg7 main_arg8 main_arg9 main_arg10 main_v13 main_v16
-- ==== Kernel.lean ====
abbrev S100000x30 : Shape := ⟨2, ![100000, 30]⟩
abbrev S2x3200000 : Shape := ⟨2, ![2, 3200000]⟩
abbrev S100000 : Shape := ⟨1, ![100000]⟩
abbrev S30x30 : Shape := ⟨2, ![30, 30]⟩
abbrev S30 : Shape := ⟨1, ![30]⟩
abbrev S30x1 : Shape := ⟨2, ![30, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3301376 : Shape := ⟨1, ![3301376]⟩
abbrev S3300000x30 : Shape := ⟨2, ![3300000, 30]⟩
abbrev S3301376x30 : Shape := ⟨2, ![3301376, 30]⟩
abbrev S8192x30 : Shape := ⟨2, ![8192, 30]⟩
abbrev S3301376x1 : Shape := ⟨2, ![3301376, 1]⟩
abbrev S1x30 : Shape := ⟨2, ![1, 30]⟩
abbrev S10000x30 : Shape := ⟨2, ![10000, 30]⟩
abbrev S512x30 : Shape := ⟨2, ![512, 30]⟩
abbrev S100000x1 : Shape := ⟨2, ![100000, 1]⟩
abbrev S512x1 : Shape := ⟨2, ![512, 1]⟩
abbrev S1x1 : Shape := ⟨2, ![1, 1]⟩

abbrev nBuf : Space → Nat
  | .hbm => 124
  | .vmem => 30
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S100000, .i32⟩
  | .hbm, ⟨3, _⟩ => ⟨S30x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S_, .i32⟩
  | .hbm, ⟨49, _⟩ => ⟨S3301376, .i32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x30, .f32⟩
  | .hbm, ⟨59, _⟩ => ⟨S3300000x1, .f32⟩
  | .hbm, ⟨60, _⟩ => ⟨S3300000x30, .f32⟩
  | .hbm, ⟨61, _⟩ => ⟨S3300000x30, .f32⟩
  | .hbm, ⟨62, _⟩ => ⟨S_, .i32⟩
  | .hbm, ⟨63, _⟩ => ⟨S_, .f32⟩
  | .hbm, ⟨64, _⟩ => ⟨S3301376x30, .f32⟩
  | .hbm, ⟨65, _⟩ => ⟨S3301376x30, .f32⟩
  | .hbm, ⟨66, _⟩ => ⟨S_, .f32⟩
  | .hbm, ⟨67, _⟩ => ⟨S100000x30, .f32⟩
  | .hbm, ⟨68, _⟩ => ⟨S3301376x1, .i32⟩
  | .hbm, ⟨69, _⟩ => ⟨S100000x30, .f32⟩
  | .hbm, ⟨70, _⟩ => ⟨S1x30, .f32⟩
  | .hbm, ⟨71, _⟩ => ⟨S100000x30, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x30, .f32⟩
  | .hbm, ⟨81, _⟩ => ⟨S3300000x1, .f32⟩
  | .hbm, ⟨82, _⟩ => ⟨S3300000x30, .f32⟩
  | .hbm, ⟨83, _⟩ => ⟨S3300000x30, .f32⟩
  | .hbm, ⟨84, _⟩ => ⟨S_, .i32⟩
  | .hbm, ⟨85, _⟩ => ⟨S_, .f32⟩
  | .hbm, ⟨86, _⟩ => ⟨S3301376x30, .f32⟩
  | .hbm, ⟨87, _⟩ => ⟨S3301376x30, .f32⟩
  | .hbm, ⟨88, _⟩ => ⟨S_, .f32⟩
  | .hbm, ⟨89, _⟩ => ⟨S100000x30, .f32⟩
  | .hbm, ⟨90, _⟩ => ⟨S3301376x1, .i32⟩
  | .hbm, ⟨91, _⟩ => ⟨S100000x30, .f32⟩
  | .hbm, ⟨92, _⟩ => ⟨S1x30, .f32⟩
  | .hbm, ⟨93, _⟩ => ⟨S100000x30, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000x30, .f32⟩
  | .hbm, ⟨103, _⟩ => ⟨S3300000x1, .f32⟩
  | .hbm, ⟨104, _⟩ => ⟨S3300000x30, .f32⟩
  | .hbm, ⟨105, _⟩ => ⟨S3300000x30, .f32⟩
  | .hbm, ⟨106, _⟩ => ⟨S_, .i32⟩
  | .hbm, ⟨107, _⟩ => ⟨S_, .f32⟩
  | .hbm, ⟨108, _⟩ => ⟨S3301376x30, .f32⟩
  | .hbm, ⟨109, _⟩ => ⟨S3301376x30, .f32⟩
  | .hbm, ⟨110, _⟩ => ⟨S_, .f32⟩
  | .hbm, ⟨111, _⟩ => ⟨S100000x30, .f32⟩
  | .hbm, ⟨112, _⟩ => ⟨S3301376x1, .i32⟩
  | .hbm, ⟨113, _⟩ => ⟨S100000x30, .f32⟩
  | .hbm, ⟨114, _⟩ => ⟨S1x30, .f32⟩
  | .hbm, ⟨115, _⟩ => ⟨S100000x30, .f32⟩
  | .hbm, ⟨116, _⟩ => ⟨S_, .f32⟩
  | .hbm, ⟨117, _⟩ => ⟨S512x30, .f32⟩
  | .hbm, ⟨118, _⟩ => ⟨S100000x1, .i32⟩
  | .hbm, ⟨119, _⟩ => ⟨S512x30, .f32⟩
  | .hbm, ⟨120, _⟩ => ⟨S512x1, .f32⟩
  | .hbm, ⟨121, _⟩ => ⟨S1x1, .f32⟩
  | .hbm, ⟨122, _⟩ => ⟨S512x1, .f32⟩
  | .hbm, ⟨123, _⟩ => ⟨S512x1, .f32⟩
  | .local _ .vmem, ⟨0, _⟩ => ⟨S8192x30, .f32⟩
  | .local _ .vmem, ⟨1, _⟩ => ⟨S8192x30, .f32⟩
  | .local _ .vmem, ⟨2, _⟩ => ⟨S30x30, .f32⟩
  | .local _ .vmem, ⟨3, _⟩ => ⟨S8192x30, .f32⟩
  | .local _ .vmem, ⟨4, _⟩ => ⟨S8192x30, .f32⟩
  | .local _ .vmem, ⟨5, _⟩ => ⟨S10000x30, .f32⟩
  | .local _ .vmem, ⟨6, _⟩ => ⟨S10000x30, .f32⟩
  | .local _ .vmem, ⟨7, _⟩ => ⟨S1x30, .f32⟩
  | .local _ .vmem, ⟨8, _⟩ => ⟨S10000x30, .f32⟩
  | .local _ .vmem, ⟨9, _⟩ => ⟨S10000x30, .f32⟩
  | .local _ .vmem, ⟨10, _⟩ => ⟨S8192x30, .f32⟩
  | .local _ .vmem, ⟨11, _⟩ => ⟨S8192x30, .f32⟩
  | .local _ .vmem, ⟨12, _⟩ => ⟨S30x30, .f32⟩
  | .local _ .vmem, ⟨13, _⟩ => ⟨S8192x30, .f32⟩
  | .local _ .vmem, ⟨14, _⟩ => ⟨S8192x30, .f32⟩
  | .local _ .vmem, ⟨15, _⟩ => ⟨S10000x30, .f32⟩
  | .local _ .vmem, ⟨16, _⟩ => ⟨S10000x30, .f32⟩
  | .local _ .vmem, ⟨17, _⟩ => ⟨S1x30, .f32⟩
  | .local _ .vmem, ⟨18, _⟩ => ⟨S10000x30, .f32⟩
  | .local _ .vmem, ⟨19, _⟩ => ⟨S10000x30, .f32⟩
  | .local _ .vmem, ⟨20, _⟩ => ⟨S8192x30, .f32⟩
  | .local _ .vmem, ⟨21, _⟩ => ⟨S8192x30, .f32⟩
  | .local _ .vmem, ⟨22, _⟩ => ⟨S30x30, .f32⟩
  | .local _ .vmem, ⟨23, _⟩ => ⟨S8192x30, .f32⟩
  | .local _ .vmem, ⟨24, _⟩ => ⟨S8192x30, .f32⟩
  | .local _ .vmem, ⟨25, _⟩ => ⟨S10000x30, .f32⟩
  | .local _ .vmem, ⟨26, _⟩ => ⟨S10000x30, .f32⟩
  | .local _ .vmem, ⟨27, _⟩ => ⟨S1x30, .f32⟩
  | .local _ .vmem, ⟨28, _⟩ => ⟨S10000x30, .f32⟩
  | .local _ .vmem, ⟨29, _⟩ => ⟨S10000x30, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_call0_v0 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_call1_v0 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_call2_v0 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_call3_v0 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![403], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x30 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![403], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S30x30 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x30 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x30 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x30 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x30 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![403], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x30 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S30x30 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8192x30 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x30 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x30 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x30 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  pads_S3300000_S3301376_013760 : S3300000.Pads (![0] : Fin 1 → Nat) ![1376] ![0] S3301376
  h_S_ : 0 < S_.numel
  bcast_S3300000x1_S3300000x30_0_1 : S3300000x1.BroadcastsInDim S3300000x30 (![0, 1] : Fin 2 → Fin S3300000x30.rank)
  pads_S3300000x30_S3301376x30_013760_000 : S3300000x30.Pads (![0, 0] : Fin 2 → Nat) ![1376, 0] ![0, 0] S3301376x30
  inb_S8192x30_S8192x30_0_0 : ∀ a, (![0, 0] : Fin 2 → Nat) a + S8192x30.size a ≤ S8192x30.size a
  h_S8192x30 : 0 < S8192x30.numel
  shapeCasts_S8192x30_S8192x30 : S8192x30.ShapeCasts S8192x30
  bitsLt_bf16_f32 : FTy.bits .bf16 < FTy.bits .f32
  inb_S30x30_S30x30_0_0 : ∀ a, (![0, 0] : Fin 2 → Nat) a + S30x30.size a ≤ S30x30.size a
  h_S30x30 : 0 < S30x30.numel
  bcast_S_S100000x30 : S_.BroadcastsInDim S100000x30 (![] : Fin 0 → Fin S100000x30.rank)
  bcast_S3301376_S3301376x1_0 : S3301376.BroadcastsInDim S3301376x1 (![0] : Fin 1 → Fin S3301376x1.rank)
  shapeCasts_S30_S1x30 : S30.ShapeCasts S1x30
  inb_S10000x30_S10000x30_0_0 : ∀ a, (![0, 0] : Fin 2 → Nat) a + S10000x30.size a ≤ S10000x30.size a
  h_S10000x30 : 0 < S10000x30.numel
  shapeCasts_S10000x30_S10000x30 : S10000x30.ShapeCasts S10000x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S10000x30 : S1x30.Broadcasts S10000x30
  bcast_S_S512x30 : S_.BroadcastsInDim S512x30 (![] : Fin 0 → Fin S512x30.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  dot_S8192x30_S30x30_S8192x30_1_0_0_1_n_n_wf : DotDims.WF S8192x30 S30x30 S8192x30 [1] [0] [0] [1] [] []
  scatter_S100000x30_S3301376x1_S3301376x30_1_0_0_1_wf : ScatterDims.WF S100000x30 S3301376x1 S3301376x30 [1] [0] [0] 1
  scatter_S512x30_S100000x1_S100000x30_1_0_0_1_wf : ScatterDims.WF S512x30 S100000x1 S100000x30 [1] [0] [0] 1
  dot_S512x30_S30x1_S512x1_1_0_0_1_n_n_wf : DotDims.WF S512x30 S30x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x30.size a ≤ S3301376x30.size a
  hwx0_0 : ∀ i : grid0.Coords, EltTy.bits .f32 = 32 ∨ (Rect.block (s := S3301376x30) S8192x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x30.size a ≤ S30x30.size a
  hwx0_1 : ∀ i : grid0.Coords, EltTy.bits .f32 = 32 ∨ (Rect.block (s := S30x30) S30x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x30.size a ≤ S3301376x30.size a
  hwx0_2 : ∀ i : grid0.Coords, EltTy.bits .f32 = 32 ∨ (Rect.block (s := S3301376x30) S8192x30.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x30.size a ≤ S100000x30.size a
  hwx1_0 : ∀ i : grid1.Coords, EltTy.bits .f32 = 32 ∨ (Rect.block (s := S100000x30) S10000x30.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x30.size a ≤ S1x30.size a
  hwx1_1 : ∀ i : grid1.Coords, EltTy.bits .f32 = 32 ∨ (Rect.block (s := S1x30) S1x30.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x30.size a ≤ S100000x30.size a
  hwx1_2 : ∀ i : grid1.Coords, EltTy.bits .f32 = 32 ∨ (Rect.block (s := S100000x30) S10000x30.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x30.size a ≤ S3301376x30.size a
  hwx2_0 : ∀ i : grid2.Coords, EltTy.bits .f32 = 32 ∨ (Rect.block (s := S3301376x30) S8192x30.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S30x30.size a ≤ S30x30.size a
  hwx2_1 : ∀ i : grid2.Coords, EltTy.bits .f32 = 32 ∨ (Rect.block (s := S30x30) S30x30.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x30.size a ≤ S3301376x30.size a
  hwx2_2 : ∀ i : grid2.Coords, EltTy.bits .f32 = 32 ∨ (Rect.block (s := S3301376x30) S8192x30.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x30.size a ≤ S100000x30.size a
  hwx3_0 : ∀ i : grid3.Coords, EltTy.bits .f32 = 32 ∨ (Rect.block (s := S100000x30) S10000x30.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x30.size a ≤ S1x30.size a
  hwx3_1 : ∀ i : grid3.Coords, EltTy.bits .f32 = 32 ∨ (Rect.block (s := S1x30) S1x30.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x30.size a ≤ S100000x30.size a
  hwx3_2 : ∀ i : grid3.Coords, EltTy.bits .f32 = 32 ∨ (Rect.block (s := S100000x30) S10000x30.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x30.size a ≤ S3301376x30.size a
  hwx4_0 : ∀ i : grid4.Coords, EltTy.bits .f32 = 32 ∨ (Rect.block (s := S3301376x30) S8192x30.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S30x30.size a ≤ S30x30.size a
  hwx4_1 : ∀ i : grid4.Coords, EltTy.bits .f32 = 32 ∨ (Rect.block (s := S30x30) S30x30.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x30.size a ≤ S3301376x30.size a
  hwx4_2 : ∀ i : grid4.Coords, EltTy.bits .f32 = 32 ∨ (Rect.block (s := S3301376x30) S8192x30.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x30.size a ≤ S100000x30.size a
  hwx5_0 : ∀ i : grid5.Coords, EltTy.bits .f32 = 32 ∨ (Rect.block (s := S100000x30) S10000x30.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x30.size a ≤ S1x30.size a
  hwx5_1 : ∀ i : grid5.Coords, EltTy.bits .f32 = 32 ∨ (Rect.block (s := S1x30) S1x30.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x30.size a ≤ S100000x30.size a
  hwx5_2 : ∀ i : grid5.Coords, EltTy.bits .f32 = 32 ∨ (Rect.block (s := S100000x30) S10000x30.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def dot_S8192x30_S30x30_S8192x30_1_0_0_1_n_n : DotDims S8192x30 S30x30 S8192x30 where
  lhsContracting := [1]
  rhsContracting := [0]
  lhsNonContracting := [0]
  rhsNonContracting := [1]
  lhsBatch := []
  rhsBatch := []
  wf := dot_S8192x30_S30x30_S8192x30_1_0_0_1_n_n_wf
def scatter_S100000x30_S3301376x1_S3301376x30_1_0_0_1 : ScatterDims S100000x30 S3301376x1 S3301376x30 where
  updateWindowDims := [1]
  insertedWindowDims := [0]
  scatterDimsToOperandDims := [0]
  indexVectorDim := 1
  wf := scatter_S100000x30_S3301376x1_S3301376x30_1_0_0_1_wf
def scatter_S512x30_S100000x1_S100000x30_1_0_0_1 : ScatterDims S512x30 S100000x1 S100000x30 where
  updateWindowDims := [1]
  insertedWindowDims := [0]
  scatterDimsToOperandDims := [0]
  indexVectorDim := 1
  wf := scatter_S512x30_S100000x1_S100000x30_1_0_0_1_wf
def dot_S512x30_S30x1_S512x1_1_0_0_1_n_n : DotDims S512x30 S30x1 S512x1 where
  lhsContracting := [1]
  rhsContracting := [0]
  lhsNonContracting := [0]
  rhsNonContracting := [1]
  lhsBatch := []
  rhsBatch := []
  wf := dot_S512x30_S30x1_S512x1_1_0_0_1_n_n_wf

abbrev win0_0 : Pipeline.Window sig grid0 :=
  Pipeline.Window.ofSpec (Memref.whole main_v40) S8192x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S30x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S8192x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x30.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S8192x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S30x30.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S8192x30.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x30.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x30.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x30.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S8192x30.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S30x30.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S8192x30.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S10000x30.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x30.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x30.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x30 : Shape := ⟨2, ![100000, 30]⟩
abbrev S2x3200000 : Shape := ⟨2, ![2, 3200000]⟩
abbrev S100000 : Shape := ⟨1, ![100000]⟩
abbrev S30x30 : Shape := ⟨2, ![30, 30]⟩
abbrev S30 : Shape := ⟨1, ![30]⟩
abbrev S30x1 : Shape := ⟨2, ![30, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S512x30 : Shape := ⟨2, ![512, 30]⟩
abbrev S100000x1 : Shape := ⟨2, ![100000, 1]⟩
abbrev S512x1 : Shape := ⟨2, ![512, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S100000, .i32⟩
  | .hbm, ⟨3, _⟩ => ⟨S30x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S30x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x30, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x30, .f32⟩
  | .hbm, ⟨57, _⟩ => ⟨S3300000x1, .f32⟩
  | .hbm, ⟨58, _⟩ => ⟨S3300000x30, .f32⟩
  | .hbm, ⟨59, _⟩ => ⟨S3300000x30, .f32⟩
  | .hbm, ⟨60, _⟩ => ⟨S_, .f32⟩
  | .hbm, ⟨61, _⟩ => ⟨S100000x30, .f32⟩
  | .hbm, ⟨62, _⟩ => ⟨S3300000x1, .i32⟩
  | .hbm, ⟨63, _⟩ => ⟨S100000x30, .f32⟩
  | .hbm, ⟨64, _⟩ => ⟨S1x30, .f32⟩
  | .hbm, ⟨65, _⟩ => ⟨S100000x30, .f32⟩
  | .hbm, ⟨66, _⟩ => ⟨S100000x30, .f32⟩
  | .hbm, ⟨67, _⟩ => ⟨S_, .f32⟩
  | .hbm, ⟨68, _⟩ => ⟨S100000x30, .f32⟩
  | .hbm, ⟨69, _⟩ => ⟨S100000x30, .f32⟩
  | .hbm, ⟨70, _⟩ => ⟨S100000x30, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x30, .f32⟩
  | .hbm, ⟨80, _⟩ => ⟨S3300000x1, .f32⟩
  | .hbm, ⟨81, _⟩ => ⟨S3300000x30, .f32⟩
  | .hbm, ⟨82, _⟩ => ⟨S3300000x30, .f32⟩
  | .hbm, ⟨83, _⟩ => ⟨S_, .f32⟩
  | .hbm, ⟨84, _⟩ => ⟨S100000x30, .f32⟩
  | .hbm, ⟨85, _⟩ => ⟨S3300000x1, .i32⟩
  | .hbm, ⟨86, _⟩ => ⟨S100000x30, .f32⟩
  | .hbm, ⟨87, _⟩ => ⟨S1x30, .f32⟩
  | .hbm, ⟨88, _⟩ => ⟨S100000x30, .f32⟩
  | .hbm, ⟨89, _⟩ => ⟨S100000x30, .f32⟩
  | .hbm, ⟨90, _⟩ => ⟨S_, .f32⟩
  | .hbm, ⟨91, _⟩ => ⟨S100000x30, .f32⟩
  | .hbm, ⟨92, _⟩ => ⟨S100000x30, .f32⟩
  | .hbm, ⟨93, _⟩ => ⟨S100000x30, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000x30, .f32⟩
  | .hbm, ⟨103, _⟩ => ⟨S3300000x1, .f32⟩
  | .hbm, ⟨104, _⟩ => ⟨S3300000x30, .f32⟩
  | .hbm, ⟨105, _⟩ => ⟨S3300000x30, .f32⟩
  | .hbm, ⟨106, _⟩ => ⟨S_, .f32⟩
  | .hbm, ⟨107, _⟩ => ⟨S100000x30, .f32⟩
  | .hbm, ⟨108, _⟩ => ⟨S3300000x1, .i32⟩
  | .hbm, ⟨109, _⟩ => ⟨S100000x30, .f32⟩
  | .hbm, ⟨110, _⟩ => ⟨S1x30, .f32⟩
  | .hbm, ⟨111, _⟩ => ⟨S100000x30, .f32⟩
  | .hbm, ⟨112, _⟩ => ⟨S100000x30, .f32⟩
  | .hbm, ⟨113, _⟩ => ⟨S_, .f32⟩
  | .hbm, ⟨114, _⟩ => ⟨S100000x30, .f32⟩
  | .hbm, ⟨115, _⟩ => ⟨S100000x30, .f32⟩
  | .hbm, ⟨116, _⟩ => ⟨S_, .f32⟩
  | .hbm, ⟨117, _⟩ => ⟨S512x30, .f32⟩
  | .hbm, ⟨118, _⟩ => ⟨S100000x1, .i32⟩
  | .hbm, ⟨119, _⟩ => ⟨S512x30, .f32⟩
  | .hbm, ⟨120, _⟩ => ⟨S512x1, .f32⟩
  | .hbm, ⟨121, _⟩ => ⟨S1x1, .f32⟩
  | .hbm, ⟨122, _⟩ => ⟨S512x1, .f32⟩
  | .hbm, ⟨123, _⟩ => ⟨S512x1, .f32⟩
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S_S512x30 : S_.BroadcastsInDim S512x30 (![] : Fin 0 → Fin S512x30.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x30_S30x30_S100000x30_1_0_0_1_n_n_wf : DotDims.WF S100000x30 S30x30 S100000x30 [1] [0] [0] [1] [] []
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  scatter_S512x30_S100000x1_S100000x30_1_0_0_1_wf : ScatterDims.WF S512x30 S100000x1 S100000x30 [1] [0] [0] 1
  dot_S512x30_S30x1_S512x1_1_0_0_1_n_n_wf : DotDims.WF S512x30 S30x1 S512x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x30_S30x30_S100000x30_1_0_0_1_n_n : DotDims S100000x30 S30x30 S100000x30 where
  lhsContracting := [1]
  rhsContracting := [0]
  lhsNonContracting := [0]
  rhsNonContracting := [1]
  lhsBatch := []
  rhsBatch := []
  wf := dot_S100000x30_S30x30_S100000x30_1_0_0_1_n_n_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def scatter_S512x30_S100000x1_S100000x30_1_0_0_1 : ScatterDims S512x30 S100000x1 S100000x30 where
  updateWindowDims := [1]
  insertedWindowDims := [0]
  scatterDimsToOperandDims := [0]
  indexVectorDim := 1
  wf := scatter_S512x30_S100000x1_S100000x30_1_0_0_1_wf
def dot_S512x30_S30x1_S512x1_1_0_0_1_n_n : DotDims S512x30 S30x1 S512x1 where
  lhsContracting := [1]
  rhsContracting := [0]
  lhsNonContracting := [0]
  rhsNonContracting := [1]
  lhsBatch := []
  rhsBatch := []
  wf := dot_S512x30_S30x1_S512x1_1_0_0_1_n_n_wf

class Facts : Prop extends Facts₀ where

variable [Facts]
-- ==== Proof.Terms.lean ====
/-
  The two programs as compositions of a few named array functions.

  Both programs compute three graph-convolution layers over N = 100000 nodes and M = 3300000 messages (the 3200000 edges
  followed by one self-loop per node), a segment sum into 512 graphs and a linear read-out.
  From the edge array both derive, by the same integer operations: the source column (negative words shifted up by N), the
  destination words, and the per-message weight norm e = dinv (src e) · dinv (dst e), where dinv = rsqrt (max (deg, 1)) and
  deg counts the messages that land on a node.

  A layer of the reference:  relu (Σ_{e → r} (h W) (src e) · norm e + b).
  A layer of the kernel:     relu (Σ_{e' → r} ((h (src e) · norm e) padded with 1376 zero rows) W + b), the padded rows sent to node 0;
  the product with W and the bias-and-relu step are the two kernel regions, named here by what they compute on whole arrays.
-/
import proofs.«164660_j53764400611947_1_alg».proof.Proof.Gen.KernelIdeal
import proofs.«164660_j53764400611947_1_alg».proof.Proof.Gen.ReferenceIdeal.Read
import Idealize.ShloMosaic.PureOps.Ideal
import Idealize.ShloMosaic.Lib.ValueIdx

noncomputable section

open Idealize.ShloMosaic Idealize.ShloMosaic.ValueIdx

/-! ## The kernel's side -/

namespace Cert.Gcn.K

open Cert.KernelIdeal Cert.KernelIdeal.Gen

/-- Message sources: row 0 of the edge array, then the nodes themselves. -/
def src (x1 : IVec S2x3200000 32) : IVec S3300000 32 :=
  concatenate S3300000 0 [⟨S3200000, (shapeCast _ (extractStridedSlice S1x3200000 ![0, 0] x1 slices_S2x3200000_S1x3200000_0_0) shapeCasts_S1x3200000_S3200000)⟩, ⟨S100000, (iotaInDim S100000 32 0)⟩] concatenates_S3200000_S100000_S3300000_d0

/-- Message destinations: row 1 of the edge array, then the nodes themselves. -/
def dst (x1 : IVec S2x3200000 32) : IVec S3300000 32 :=
  concatenate S3300000 0 [⟨S3200000, (shapeCast _ (extractStridedSlice S1x3200000 ![1, 0] x1 slices_S2x3200000_S1x3200000_1_0) shapeCasts_S1x3200000_S3200000)⟩, ⟨S100000, (iotaInDim S100000 32 0)⟩] concatenates_S3200000_S100000_S3300000_d0

/-- A column of start indices as a row lookup reads it: negative words shifted up by N. -/
def wrapCol (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- dinv = rsqrt (max (deg, 1)), deg the number of messages landing on each node. -/
def dinv (x1 : IVec S2x3200000 32) : FVec Ideal S100000 .f32 :=
  Host.rsqrt (F := Ideal) (maximumf (F := Ideal)
    (Host.scatterAdd (F := Ideal) scatter_S100000_S3300000x1_S3300000_n_0_0_1 (broadcastInDim S100000 ![] bcast_S_S100000 (constant (F := Ideal) S_ .f32 0x00000000#32))
      (broadcastInDim S3300000x1 ![0] bcast_S3300000_S3300000x1_0 (dst x1)) (broadcastInDim S3300000 ![] bcast_S_S3300000 (constant (F := Ideal) S_ .f32 0x3F800000#32)))
    (broadcastInDim S100000 ![] bcast_S_S100000 (constant (F := Ideal) S_ .f32 0x3F800000#32)))

/-- The weight of each message. -/
def norm (x1 : IVec S2x3200000 32) : FVec Ideal S3300000 .f32 :=
  mulf (F := Ideal) (Host.gather gather_S100000_S3300000x1_S3300000_n_0_n_n_0_1_1 (dinv x1) (wrapCol (src x1)))
       (Host.gather gather_S100000_S3300000x1_S3300000_n_0_n_n_0_1_1 (dinv x1) (wrapCol (dst x1)))

/-- The destinations padded with 1376 zero words, as a column. -/
def dstPadCol (x1 : IVec S2x3200000 32) : IVec S3301376x1 32 :=
  broadcastInDim S3301376x1 ![0] bcast_S3301376_S3301376x1_0
    (pad S3301376 ![0] ![1376] ![0] (dst x1) (id (constantI S_ 32 0#32)) pads_S3300000_S3301376_013760 h_S_)

/-- The gathered, weighted and zero-padded rows a layer's first region multiplies. -/
def scaledRows (x1 : IVec S2x3200000 32) (h : FVec Ideal S100000x30 .f32) :
    FVec Ideal S3301376x30 .f32 :=
  pad S3301376x30 ![0, 0] ![1376, 0] ![0, 0]
    (mulf (F := Ideal) (Host.gather gather_S100000x30_S3300000x1_S3300000x30_1_0_n_n_0_1_130 h (wrapCol (src x1)))
      (broadcastInDim S3300000x30 ![0, 1] bcast_S3300000x1_S3300000x30_0_1 (broadcastInDim S3300000x1 ![0] bcast_S3300000_S3300000x1_0 (norm x1))))
    (sitofp (F := Ideal) .f32 (constantI S_ 32 0#32)) pads_S3300000x30_S3301376x30_013760_000 h_S_

/-- What a message region leaves in its output array: each row of X times W. -/
def rowsTimes (X : FVec Ideal S3301376x30 .f32) (W : FVec Ideal S30x30 .f32) :
    FVec Ideal S3301376x30 .f32 :=
  fun i => ∑ k : Fin 30, X (ix2 (i 0) k) * W (ix2 k (i 1))

/-- What a bias-and-relu region leaves in its output array. -/
def biasRelu (A : FVec Ideal S100000x30 .f32) (b : FVec Ideal S1x30 .f32) :
    FVec Ideal S100000x30 .f32 :=
  fun i => max (A i + b (ix2 (0 : Fin 1) (i 1))) (Ideal.ofBits .f32 0x00000000#32)

/-- One layer of the kernel. -/
def layer (x1 : IVec S2x3200000 32) (h : FVec Ideal S100000x30 .f32)
    (W : FVec Ideal S30x30 .f32) (b : FVec Ideal S30 .f32) :
    FVec Ideal S100000x30 .f32 :=
  biasRelu
    (Host.scatterAdd (F := Ideal) scatter_S100000x30_S3301376x1_S3301376x30_1_0_0_1 (broadcastInDim S100000x30 ![] bcast_S_S100000x30 (constant (F := Ideal) S_ .f32 0x00000000#32))
      (dstPadCol x1) (rowsTimes (scaledRows x1 h) W))
    (shapeCast S1x30 b shapeCasts_S30_S1x30)

/-- The segment sum into graphs and the linear read-out. -/
def tail (x2 : IVec S100000 32) (h : FVec Ideal S100000x30 .f32)
    (lw : FVec Ideal S30x1 .f32) (lb : FVec Ideal S1 .f32) :
    FVec Ideal S512x1 .f32 :=
  addf (F := Ideal) (Host.dotGeneral (F := Ideal) dot_S512x30_S30x1_S512x1_1_0_0_1_n_n none
      (Host.scatterAdd (F := Ideal) scatter_S512x30_S100000x1_S100000x30_1_0_0_1 (broadcastInDim S512x30 ![] bcast_S_S512x30 (constant (F := Ideal) S_ .f32 0x00000000#32))
        (broadcastInDim S100000x1 ![0] bcast_S100000_S100000x1_0 x2) h) lw)
    (broadcastInDim S512x1 ![0, 1] bcast_S1x1_S512x1_0_1 (broadcastInDim S1x1 ![1] bcast_S1_S1x1_1 lb))

end Cert.Gcn.K

/-! ## The reference's side -/

namespace Cert.Gcn.R

open Cert.ReferenceIdeal Cert.ReferenceIdeal.Gen Cert.ReferenceIdeal.Read

/-- One layer of the reference, over the source column, the destination column and the weights it derives from the edges. -/
def layer (x1 : IVec S2x3200000 32) (h : FVec Ideal S100000x30 .f32)
    (W : FVec Ideal S30x30 .f32) (b : FVec Ideal S30 .f32) :
    FVec Ideal S100000x30 .f32 :=
  maximumf (F := Ideal)
    (addf (F := Ideal)
      (Host.scatterAdd (F := Ideal) scatter_S100000x30_S3300000x1_S3300000x30_1_0_0_1 (val_main_v40 (F := Ideal)) (val_main_v41 (F := Ideal) x1)
        (mulf (F := Ideal) (Host.gather gather_S100000x30_S3300000x1_S3300000x30_1_0_n_n_0_1_130 (Host.dotGeneral (F := Ideal) dot_S100000x30_S30x30_S100000x30_1_0_0_1_n_n none h W) (val_main_v35 (F := Ideal) x1))
          (val_main_v38 (F := Ideal) x1)))
      (broadcastInDim S100000x30 ![0, 1] bcast_S1x30_S100000x30_0_1 (broadcastInDim S1x30 ![1] bcast_S30_S1x30_1 b)))
    (val_main_call0_v0 (F := Ideal))

/-- The segment sum into graphs and the linear read-out. -/
def tail (x2 : IVec S100000 32) (h : FVec Ideal S100000x30 .f32)
    (lw : FVec Ideal S30x1 .f32) (lb : FVec Ideal S1 .f32) :
    FVec Ideal S512x1 .f32 :=
  addf (F := Ideal) (Host.dotGeneral (F := Ideal) dot_S512x30_S30x1_S512x1_1_0_0_1_n_n none
      (Host.scatterAdd (F := Ideal) scatter_S512x30_S100000x1_S100000x30_1_0_0_1 (broadcastInDim S512x30 ![] bcast_S_S512x30 (constant (F := Ideal) S_ .f32 0x00000000#32))
        (broadcastInDim S100000x1 ![0] bcast_S100000_S100000x1_0 x2) h) lw)
    (broadcastInDim S512x1 ![0, 1] bcast_S1x1_S512x1_0_1 (broadcastInDim S1x1 ![1] bcast_S1_S1x1_1 lb))

end Cert.Gcn.R

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.RegionMsg.lean ====
/-
  What a message region leaves in its output array: it walks 403 blocks of 8192 rows and at each multiplies the block of rows
  by the whole 30 × 30 matrix, so the output array ends as every row of the input array times the matrix.

  Per region: the product at an entry of a block; the index maps over the grid (the rows' window and the output's at block t
  of the long axis, the matrix's window at the origin); what point t writes back, as block t of the rows-times-matrix array;
  the blocks' ranges; row r lies in block r / 8192 and 403 · 8192 = 3301376, so the blocks cover the array.
-/
import proofs.«164660_j53764400611947_1_alg».proof.Proof.Gen.KernelIdeal.Frame
import proofs.«164660_j53764400611947_1_alg».proof.Proof.Terms
import proofs.«164660_j53764400611947_1_alg».proof.Proof.LibDense
import Idealize.ShloMosaic.Lib.Pipeline.Value

noncomputable section

namespace Cert.Gcn.RegionMsg

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 := funext fun a => by fin_cases a <;> rfl

/-- A product of an entry of the rows and an entry of the matrix moves along equal indices. -/
theorem entries_mul_congr (X : FVec Ideal S3301376x30 .f32) (W : FVec Ideal S30x30 .f32) {a a' : S3301376x30.Idx}
    {b b' : S30x30.Idx} (ha : a = a') (hb : b = b') : X a * W b = X a' * W b' := by rw [ha, hb]

/-! ## Region 0: the first layer's rows times its matrix -/

namespace R0

/-- The body's product at an entry: row p of the block of rows against column q of the matrix. -/
theorem product_apply (x0 : Vec Ideal S8192x30 .f32) (x1 : Vec Ideal S30x30 .f32) (p : Fin 8192) (q : Fin 30) :
    k0_pay1 (F := Ideal) x0 x1 (ix2 p q) = ∑ k : Fin 30, x0 (ix2 p k) * x1 (ix2 k q) := by
  unfold k0_pay1
  rw [shapeCast_self]
  exact Cert.LibDense.matmul_zero_apply dot_S8192x30_S30x30_S8192x30_1_0_0_1_n_n none rfl rfl rfl rfl rfl rfl x0 x1 p q

/-- The index maps over the grid: the rows' window and the output's sit at block t of the long axis, the matrix's
    window at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of every row of the input array times the matrix. -/
theorem flushed_eq (c : Dev nD) (t : Fin cfg0.N) :
    (dat0 (F := Ideal) V c).flushed 2 t
      = ((cfg0.win 2).blk t).view.read (Elt Ideal) (Cert.Gcn.K.rowsTimes (V c main_v40) (V c main_arg3)) := by
  show (cfg0.win 2).cut (grid0.coords t) ((dat0 V c).after 2 t) = _
  rw [after0_2]
  unfold out0_2
  rw [View.canon_unit_zero zeroOffsets]
  simp only [View.ld_unit_zero (S := S8192x30) zeroOffsets, View.ld_unit_zero (S := S30x30) zeroOffsets]
  obtain ⟨e0, e1, e2, e3, e4, e5⟩ := index_maps t
  funext j
  obtain ⟨p, q, rfl⟩ : ∃ (p : Fin 8192) (q : Fin 30), j = ix2 p q := ⟨j 0, j 1, eq_ix2 j⟩
  refine (product_apply (iblk0 V c 0 t) (iblk0 V c 1 t) p q).trans ?_
  show _ = Cert.Gcn.K.rowsTimes (V c main_v40) (V c main_arg3) (((cfg0.win 2).blk t).view.emb (ix2 p q))
  unfold Cert.Gcn.K.rowsTimes
  refine Finset.sum_congr rfl fun k _ => ?_
  have hrow : ((cfg0.win 0).blk t).view.emb (ix2 p k) = ix2 ((((cfg0.win 2).blk t).view.emb (ix2 p q)) 0) k := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 30 + 1 * k.val = k.val; omega
  have hmat : ((cfg0.win 1).blk t).view.emb (ix2 k q) = ix2 k ((((cfg0.win 2).blk t).view.emb (ix2 p q)) 1) := by
    funext a; apply Fin.ext
    match a with
    | ⟨0, _⟩ => show win0_1.index t (0 : Fin 2) * 30 + 1 * k.val = k.val; omega
    | ⟨1, _⟩ => show win0_1.index t (1 : Fin 2) * 30 + 1 * q.val = win0_2.index t (1 : Fin 2) * 30 + 1 * q.val; omega
  exact entries_mul_congr (V c main_v40) (V c main_arg3) hrow hmat

/-- An index of the output array is in point t's block iff each coordinate is in the block's range on its axis. -/
theorem mem_blk (t : Fin cfg0.N) (i : S3301376x30.Idx) :
    i ∈ ((cfg0.win 2).blk t).view.set ↔ ∀ a : Fin 2, win0_2.index t a * S8192x30.size a ≤ (i a).val
      ∧ (i a).val < win0_2.index t a * S8192x30.size a + S8192x30.size a := by
  show i ∈ ((View.whole main_v41).slice (win0_2.rect t)).set ↔ _
  rw [View.set_slice_whole, Rect.mem_set_unit]
  exact Iff.rfl

/-- Row r lies in the block of point r / 8192, and 403 · 8192 = 3301376 rows are all there are. -/
theorem cover (i : S3301376x30.Idx) :
    ∃ t : Fin cfg0.N, (cfg0.win 2).flush t = true ∧ i ∈ ((cfg0.win 2).blk t).view.set := by
  have hi0 : (i 0).val < 3301376 := (i 0).isLt
  have hi1 : (i 1).val < 30 := (i 1).isLt
  obtain ⟨t, ht⟩ : ∃ t : Fin cfg0.N, t.val = (i 0).val / 8192 :=
    ⟨⟨(i 0).val / 8192, by show (i 0).val / 8192 < 403; omega⟩, rfl⟩
  obtain ⟨e0, e1, e2, e3, e4, e5⟩ := index_maps t
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 30 ≤ (i 1).val ∧ (i 1).val < win0_2.index t (1 : Fin 2) * 30 + 30; omega

end R0

theorem arr0 (c : Dev nD) : (dat0 (F := Ideal) V c).arrAt 2 cfg0.N = Cert.Gcn.K.rowsTimes (V c main_v40) (V c main_arg3) :=
  (dat0 (F := Ideal) V c).arrAt_eq_of_cover 2 _ (fun t _ => R0.flushed_eq V c t) R0.cover

/-! ## Region 2: the second layer's rows times its matrix -/

namespace R2

/-- The body's product at an entry: row p of the block of rows against column q of the matrix. -/
theorem product_apply (x0 : Vec Ideal S8192x30 .f32) (x1 : Vec Ideal S30x30 .f32) (p : Fin 8192) (q : Fin 30) :
    k2_pay1 (F := Ideal) x0 x1 (ix2 p q) = ∑ k : Fin 30, x0 (ix2 p k) * x1 (ix2 k q) := by
  unfold k2_pay1
  rw [shapeCast_self]
  exact Cert.LibDense.matmul_zero_apply dot_S8192x30_S30x30_S8192x30_1_0_0_1_n_n none rfl rfl rfl rfl rfl rfl x0 x1 p q

/-- The index maps over the grid: the rows' window and the output's sit at block t of the long axis, the matrix's
    window at the origin. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of every row of the input array times the matrix. -/
theorem flushed_eq (c : Dev nD) (t : Fin cfg2.N) :
    (dat2 (F := Ideal) V c).flushed 2 t
      = ((cfg2.win 2).blk t).view.read (Elt Ideal) (Cert.Gcn.K.rowsTimes (V c main_v57) (V c main_arg5)) := by
  show (cfg2.win 2).cut (grid2.coords t) ((dat2 V c).after 2 t) = _
  rw [after2_2]
  unfold out2_2
  rw [View.canon_unit_zero zeroOffsets]
  simp only [View.ld_unit_zero (S := S8192x30) zeroOffsets, View.ld_unit_zero (S := S30x30) zeroOffsets]
  obtain ⟨e0, e1, e2, e3, e4, e5⟩ := index_maps t
  funext j
  obtain ⟨p, q, rfl⟩ : ∃ (p : Fin 8192) (q : Fin 30), j = ix2 p q := ⟨j 0, j 1, eq_ix2 j⟩
  refine (product_apply (iblk2 V c 0 t) (iblk2 V c 1 t) p q).trans ?_
  show _ = Cert.Gcn.K.rowsTimes (V c main_v57) (V c main_arg5) (((cfg2.win 2).blk t).view.emb (ix2 p q))
  unfold Cert.Gcn.K.rowsTimes
  refine Finset.sum_congr rfl fun k _ => ?_
  have hrow : ((cfg2.win 0).blk t).view.emb (ix2 p k) = ix2 ((((cfg2.win 2).blk t).view.emb (ix2 p q)) 0) k := by
    funext a; apply Fin.ext
    match a with
    | ⟨0, _⟩ => show win2_0.index t (0 : Fin 2) * 8192 + 1 * p.val = win2_2.index t (0 : Fin 2) * 8192 + 1 * p.val; omega
    | ⟨1, _⟩ => show win2_0.index t (1 : Fin 2) * 30 + 1 * k.val = k.val; omega
  have hmat : ((cfg2.win 1).blk t).view.emb (ix2 k q) = ix2 k ((((cfg2.win 2).blk t).view.emb (ix2 p q)) 1) := by
    funext a; apply Fin.ext
    match a with
    | ⟨0, _⟩ => show win2_1.index t (0 : Fin 2) * 30 + 1 * k.val = k.val; omega
    | ⟨1, _⟩ => show win2_1.index t (1 : Fin 2) * 30 + 1 * q.val = win2_2.index t (1 : Fin 2) * 30 + 1 * q.val; omega
  exact entries_mul_congr (V c main_v57) (V c main_arg5) hrow hmat

/-- An index of the output array is in point t's block iff each coordinate is in the block's range on its axis. -/
theorem mem_blk (t : Fin cfg2.N) (i : S3301376x30.Idx) :
    i ∈ ((cfg2.win 2).blk t).view.set ↔ ∀ a : Fin 2, win2_2.index t a * S8192x30.size a ≤ (i a).val
      ∧ (i a).val < win2_2.index t a * S8192x30.size a + S8192x30.size a := by
  show i ∈ ((View.whole main_v58).slice (win2_2.rect t)).set ↔ _
  rw [View.set_slice_whole, Rect.mem_set_unit]
  exact Iff.rfl

/-- Row r lies in the block of point r / 8192, and 403 · 8192 = 3301376 rows are all there are. -/
theorem cover (i : S3301376x30.Idx) :
    ∃ t : Fin cfg2.N, (cfg2.win 2).flush t = true ∧ i ∈ ((cfg2.win 2).blk t).view.set := by
  have hi0 : (i 0).val < 3301376 := (i 0).isLt
  have hi1 : (i 1).val < 30 := (i 1).isLt
  obtain ⟨t, ht⟩ : ∃ t : Fin cfg2.N, t.val = (i 0).val / 8192 :=
    ⟨⟨(i 0).val / 8192, by show (i 0).val / 8192 < 403; omega⟩, rfl⟩
  obtain ⟨e0, e1, e2, e3, e4, e5⟩ := index_maps t
  refine ⟨t, flush2_2 t, ?_⟩
  rw [mem_blk]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 30 ≤ (i 1).val ∧ (i 1).val < win2_2.index t (1 : Fin 2) * 30 + 30; omega

end R2

theorem arr2 (c : Dev nD) : (dat2 (F := Ideal) V c).arrAt 2 cfg2.N = Cert.Gcn.K.rowsTimes (V c main_v57) (V c main_arg5) :=
  (dat2 (F := Ideal) V c).arrAt_eq_of_cover 2 _ (fun t _ => R2.flushed_eq V c t) R2.cover

/-! ## Region 4: the third layer's rows times its matrix -/

namespace R4

/-- The body's product at an entry: row p of the block of rows against column q of the matrix. -/
theorem product_apply (x0 : Vec Ideal S8192x30 .f32) (x1 : Vec Ideal S30x30 .f32) (p : Fin 8192) (q : Fin 30) :
    k4_pay1 (F := Ideal) x0 x1 (ix2 p q) = ∑ k : Fin 30, x0 (ix2 p k) * x1 (ix2 k q) := by
  unfold k4_pay1
  rw [shapeCast_self]
  exact Cert.LibDense.matmul_zero_apply dot_S8192x30_S30x30_S8192x30_1_0_0_1_n_n none rfl rfl rfl rfl rfl rfl x0 x1 p q

/-- The index maps over the grid: the rows' window and the output's sit at block t of the long axis, the matrix's
    window at the origin. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of every row of the input array times the matrix. -/
theorem flushed_eq (c : Dev nD) (t : Fin cfg4.N) :
    (dat4 (F := Ideal) V c).flushed 2 t
      = ((cfg4.win 2).blk t).view.read (Elt Ideal) (Cert.Gcn.K.rowsTimes (V c main_v74) (V c main_arg7)) := by
  show (cfg4.win 2).cut (grid4.coords t) ((dat4 V c).after 2 t) = _
  rw [after4_2]
  unfold out4_2
  rw [View.canon_unit_zero zeroOffsets]
  simp only [View.ld_unit_zero (S := S8192x30) zeroOffsets, View.ld_unit_zero (S := S30x30) zeroOffsets]
  obtain ⟨e0, e1, e2, e3, e4, e5⟩ := index_maps t
  funext j
  obtain ⟨p, q, rfl⟩ : ∃ (p : Fin 8192) (q : Fin 30), j = ix2 p q := ⟨j 0, j 1, eq_ix2 j⟩
  refine (product_apply (iblk4 V c 0 t) (iblk4 V c 1 t) p q).trans ?_
  show _ = Cert.Gcn.K.rowsTimes (V c main_v74) (V c main_arg7) (((cfg4.win 2).blk t).view.emb (ix2 p q))
  unfold Cert.Gcn.K.rowsTimes
  refine Finset.sum_congr rfl fun k _ => ?_
  have hrow : ((cfg4.win 0).blk t).view.emb (ix2 p k) = ix2 ((((cfg4.win 2).blk t).view.emb (ix2 p q)) 0) k := by
    funext a; apply Fin.ext
    match a with
    | ⟨0, _⟩ => show win4_0.index t (0 : Fin 2) * 8192 + 1 * p.val = win4_2.index t (0 : Fin 2) * 8192 + 1 * p.val; omega
    | ⟨1, _⟩ => show win4_0.index t (1 : Fin 2) * 30 + 1 * k.val = k.val; omega
  have hmat : ((cfg4.win 1).blk t).view.emb (ix2 k q) = ix2 k ((((cfg4.win 2).blk t).view.emb (ix2 p q)) 1) := by
    funext a; apply Fin.ext
    match a with
    | ⟨0, _⟩ => show win4_1.index t (0 : Fin 2) * 30 + 1 * k.val = k.val; omega
    | ⟨1, _⟩ => show win4_1.index t (1 : Fin 2) * 30 + 1 * q.val = win4_2.index t (1 : Fin 2) * 30 + 1 * q.val; omega
  exact entries_mul_congr (V c main_v74) (V c main_arg7) hrow hmat

/-- An index of the output array is in point t's block iff each coordinate is in the block's range on its axis. -/
theorem mem_blk (t : Fin cfg4.N) (i : S3301376x30.Idx) :
    i ∈ ((cfg4.win 2).blk t).view.set ↔ ∀ a : Fin 2, win4_2.index t a * S8192x30.size a ≤ (i a).val
      ∧ (i a).val < win4_2.index t a * S8192x30.size a + S8192x30.size a := by
  show i ∈ ((View.whole main_v75).slice (win4_2.rect t)).set ↔ _
  rw [View.set_slice_whole, Rect.mem_set_unit]
  exact Iff.rfl

/-- Row r lies in the block of point r / 8192, and 403 · 8192 = 3301376 rows are all there are. -/
theorem cover (i : S3301376x30.Idx) :
    ∃ t : Fin cfg4.N, (cfg4.win 2).flush t = true ∧ i ∈ ((cfg4.win 2).blk t).view.set := by
  have hi0 : (i 0).val < 3301376 := (i 0).isLt
  have hi1 : (i 1).val < 30 := (i 1).isLt
  obtain ⟨t, ht⟩ : ∃ t : Fin cfg4.N, t.val = (i 0).val / 8192 :=
    ⟨⟨(i 0).val / 8192, by show (i 0).val / 8192 < 403; omega⟩, rfl⟩
  obtain ⟨e0, e1, e2, e3, e4, e5⟩ := index_maps t
  refine ⟨t, flush4_2 t, ?_⟩
  rw [mem_blk]
  intro a
  match a with
  | ⟨0, _⟩ => show win4_2.index t (0 : Fin 2) * 8192 ≤ (i 0).val ∧ (i 0).val < win4_2.index t (0 : Fin 2) * 8192 + 8192; omega
  | ⟨1, _⟩ => show win4_2.index t (1 : Fin 2) * 30 ≤ (i 1).val ∧ (i 1).val < win4_2.index t (1 : Fin 2) * 30 + 30; omega

end R4

theorem arr4 (c : Dev nD) : (dat4 (F := Ideal) V c).arrAt 2 cfg4.N = Cert.Gcn.K.rowsTimes (V c main_v74) (V c main_arg7) :=
  (dat4 (F := Ideal) V c).arrAt_eq_of_cover 2 _ (fun t _ => R4.flushed_eq V c t) R4.cover

end Cert.Gcn.RegionMsg

end
-- ==== Proof.RegionBias.lean ====
/-
  What a bias-and-relu region leaves in its output array: it walks 10 blocks of 10000 rows and at each adds the bias row to
  every row of the block and clips at zero.

  Per region: the block's value at a row and a column; where the three windows' blocks sit at each of the ten grid points
  (the input block and the output block at rows 10000 t … 10000 t + 9999, the bias row always at row 0); hence what point t
  writes back is block t of the whole-array function max (A + b, 0); every row r lies in the block of point r / 10000, so the
  ten blocks cover the array, which therefore ends holding that function.
-/
import proofs.«164660_j53764400611947_1_alg».proof.Proof.Gen.KernelIdeal.Frame
import proofs.«164660_j53764400611947_1_alg».proof.Proof.Terms
import Idealize.ShloMosaic.Lib.Pipeline.Value
import Idealize.ShloMosaic.Lib.ValueLayout

noncomputable section

namespace Cert.Gcn.RegionBias

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## Shared by the three regions -/

/-- The zero offsets of a whole-buffer access, as a constant function. -/
theorem zeroOff : (![0, 0] : Fin 2 → Nat) = fun _ => 0 := funext fun a => by fin_cases a <;> rfl

/-- The bias-and-clip of one entry depends only on where the two entries are read. -/
theorem clip_congr (A : FVec Ideal S100000x30 .f32) (b : FVec Ideal S1x30 .f32) {i i' : S100000x30.Idx} {k k' : S1x30.Idx}
    (hi : i = i') (hk : k = k') :
    max (A i + b k) (Ideal.ofBits .f32 0x00000000#32) = max (A i' + b k') (Ideal.ofBits .f32 0x00000000#32) := by
  rw [hi, hk]

/-! ## Region 1 -/

/-- The block's value at row p, column q: the block's entry plus the bias row's entry of that column, clipped at zero. -/
theorem pay1_apply (x0 : Vec Ideal S10000x30 .f32) (x1 : Vec Ideal S1x30 .f32) (p : Fin 10000) (q : Fin 30) :
    k1_pay1 x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self]
  rw [broadcastTo_1b_ab_apply]
  rfl

/-- The windows' block indices at each of the ten grid points: the input block and the output block move down the rows
    together, the bias row stays where it is. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias-and-clip of the two arrays as the region finds them. -/
theorem flushed1_eq (c : Dev nD) (t : Fin cfg1.N) :
    (dat1 (F := Ideal) V c).flushed 2 t
      = ((cfg1.win 2).blk t).view.read (Elt Ideal) (Cert.Gcn.K.biasRelu (V c main_v44) (V c main_v45)) := by
  show (cfg1.win 2).cut (grid1.coords t) ((dat1 V c).after 2 t) = _
  rw [after1_2]
  unfold out1_2
  rw [View.canon_unit_zero zeroOff]
  simp only [View.ld_unit_zero (S := S10000x30) zeroOff, View.ld_unit_zero (S := S1x30) zeroOff]
  obtain ⟨e00, e01, e10, e11, e20, e21⟩ := idx1 t
  funext j
  obtain ⟨p, q, rfl⟩ : ∃ (p : Fin 10000) (q : Fin 30), j = ix2 p q := ⟨j 0, j 1, eq_ix2 j⟩
  show k1_pay1 (iblk1 V c 0 t) (iblk1 V c 1 t) (ix2 p q)
      = Cert.Gcn.K.biasRelu (V c main_v44) (V c main_v45) (((cfg1.win 2).blk t).view.emb (ix2 p q))
  refine (pay1_apply (iblk1 V c 0 t) (iblk1 V c 1 t) p q).trans ?_
  -- the input block's entry sits in its array where the output block's entry sits in its own
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 30 + 1 * q.val = win1_2.index t (1 : Fin 2) * 30 + 1 * q.val; omega
  -- the bias row's entry is the one of the output entry's column
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 30 + 1 * q.val = win1_2.index t (1 : Fin 2) * 30 + 1 * q.val; omega
  exact clip_congr (V c main_v44) (V c main_v45) h0 h1

/-- An entry of the array is in point t's block iff each coordinate is in the block's range on its axis. -/
theorem mem_blk1 (t : Fin cfg1.N) (i : S100000x30.Idx) :
    i ∈ ((cfg1.win 2).blk t).view.set ↔ ∀ a : Fin 2, win1_2.index t a * S10000x30.size a ≤ (i a).val
      ∧ (i a).val < win1_2.index t a * S10000x30.size a + S10000x30.size a := by
  show i ∈ ((View.whole main_v46).slice (win1_2.rect t)).set ↔ _
  rw [View.set_slice_whole, Rect.mem_set_unit]
  exact Iff.rfl

/-- Every entry of the array is written: row r lies in the block of point r / 10000. -/
theorem cover1 (i : S100000x30.Idx) :
    ∃ t : Fin cfg1.N, (cfg1.win 2).flush t = true ∧ i ∈ ((cfg1.win 2).blk t).view.set := by
  have hi0 : (i 0).val < 100000 := (i 0).isLt
  have hi1 : (i 1).val < 30 := (i 1).isLt
  obtain ⟨t, ht⟩ : ∃ t : Fin cfg1.N, t.val = (i 0).val / 10000 :=
    ⟨⟨(i 0).val / 10000, by show (i 0).val / 10000 < 10; omega⟩, rfl⟩
  obtain ⟨-, -, -, -, e20, e21⟩ := idx1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 30 ≤ (i 1).val ∧ (i 1).val < win1_2.index t (1 : Fin 2) * 30 + 30; omega

/-- The array after the region: the bias-and-clip of the two arrays the region found, entry by entry. -/
theorem arr1 (c : Dev nD) : (dat1 (F := Ideal) V c).arrAt 2 cfg1.N = Cert.Gcn.K.biasRelu (V c main_v44) (V c main_v45) :=
  (dat1 (F := Ideal) V c).arrAt_eq_of_cover 2 _ (fun t _ => flushed1_eq V c t) cover1

/-! ## Region 3 -/

/-- The block's value at row p, column q: the block's entry plus the bias row's entry of that column, clipped at zero. -/
theorem pay3_apply (x0 : Vec Ideal S10000x30 .f32) (x1 : Vec Ideal S1x30 .f32) (p : Fin 10000) (q : Fin 30) :
    k3_pay1 x0 x1 (ix2 p q) = max (x0 (ix2 p q) + x1 (ix2 (0 : Fin 1) q)) (Ideal.ofBits .f32 0x00000000#32) := by
  unfold k3_pay1
  rw [maximumf_apply, addf_apply, broadcast_apply, shapeCast_self, shapeCast_self]
  rw [broadcastTo_1b_ab_apply]
  rfl

/-- The windows' block indices at each of the ten grid points: the input block and the output block move down the rows
    together, the bias row stays where it is. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias-and-clip of the two arrays as the region finds them. -/
theorem flushed3_eq (c : Dev nD) (t : Fin cfg3.N) :
    (dat3 (F := Ideal) V c).flushed 2 t
      = ((cfg3.win 2).blk t).view.read (Elt Ideal) (Cert.Gcn.K.biasRelu (V c main_v61) (V c main_v62)) := by
  show (cfg3.win 2).cut (grid3.coords t) ((dat3 V c).after 2 t) = _
  rw [after3_2]
  unfold out3_2
  rw [View.canon_unit_zero zeroOff]
  simp only [View.ld_unit_zero (S := S10000x30) zeroOff, View.ld_unit_zero (S := S1x30) zeroOff]
  obtain ⟨e00, e01, e10, e11, e20, e21⟩ := idx3 t
  funext j
  obtain ⟨p, q, rfl⟩ : ∃ (p : Fin 10000) (q : Fin 30), j = ix2 p q := ⟨j 0, j 1, eq_ix2 j⟩
  show k3_pay1 (iblk3 V c 0 t) (iblk3 V c 1 t) (ix2 p q)
      = Cert.Gcn.K.biasRelu (V c main_v61) (V c main_v62) (((cfg3.win 2).blk t).view.emb (ix2 p q))
  refine (pay3_apply (iblk3 V c 0 t) (iblk3 V c 1 t) p q).trans ?_
  -- the input block's entry sits in its array where the output block's entry sits in its own
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 30 + 1 * q.val = win3_2.index t (1 : Fin 2) * 30 + 1 * q.val; omega
  -- the bias row's entry is the one of the output entry's column
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 30 + 1 * q.val = win3_2.index t (1 : Fin 2) * 30 + 1 * q.val; omega
  exact clip_congr (V c main_v61) (V c main_v62) h0 h1

/-- An entry of the array is in point t's block iff each coordinate is in the block's range on its axis. -/
theorem mem_blk3 (t : Fin cfg3.N) (i : S100000x30.Idx) :
    i ∈ ((cfg3.win 2).blk t).view.set ↔ ∀ a : Fin 2, win3_2.index t a * S10000x30.size a ≤ (i a).val
      ∧ (i a).val < win3_2.index t a * S10000x30.size a + S10000x30.size a := by
  show i ∈ ((View.whole main_v63).slice (win3_2.rect t)).set ↔ _
  rw [View.set_slice_whole, Rect.mem_set_unit]
  exact Iff.rfl

/-- Every entry of the array is written: row r lies in the block of point r / 10000. -/
theorem cover3 (i : S100000x30.Idx) :
    ∃ t : Fin cfg3.N, (cfg3.win 2).flush t = true ∧ i ∈ ((cfg3.win 2).blk t).view.set := by
  have hi0 : (i 0).val < 100000 := (i 0).isLt
  have hi1 : (i 1).val < 30 := (i 1).isLt
  obtain ⟨t, ht⟩ : ∃ t : Fin cfg3.N, t.val = (i 0).val / 10000 :=
    ⟨⟨(i 0).val / 10000, by show (i 0).val / 10000 < 10; omega⟩, rfl⟩
  obtain ⟨-, -, -, -, e20, e21⟩ := idx3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 30 ≤ (i 1).val ∧ (i 1).val < win3_2.index t (1 : Fin 2) * 30 + 30; omega

/-- The array after the region: the bias-and-clip of the two arrays the region found, entry by entry. -/
theorem arr3 (c : Dev nD) : (dat3 (F := Ideal) V c).arrAt 2 cfg3.N = Cert.Gcn.K.biasRelu (V c main_v61) (V c main_v62) :=
  (dat3 (F := Ideal) V c).arrAt_eq_of_cover 2 _ (fun t _ => flushed3_eq V c t) cover3

/-! ## Region 5 -/

/-- The block's value at row p, column q: the block's entry plus the bias row's entry of that column, clipped at zero. -/
theorem pay5_apply (x0 : Vec Ideal S10000x30 .f32) (x1 : Vec Ideal S1x30 .f32) (p : Fin 10000) (q : Fin 30) :
    k5_pay1 x0 x1 (ix2 p q) = max (x0 (ix2 p q) + x1 (ix2 (0 : Fin 1) q)) (Ideal.ofBits .f32 0x00000000#32) := by
  unfold k5_pay1
  rw [maximumf_apply, addf_apply, broadcast_apply, shapeCast_self, shapeCast_self]
  rw [broadcastTo_1b_ab_apply]
  rfl

/-- The windows' block indices at each of the ten grid points: the input block and the output block move down the rows
    together, the bias row stays where it is. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the bias-and-clip of the two arrays as the region finds them. -/
theorem flushed5_eq (c : Dev nD) (t : Fin cfg5.N) :
    (dat5 (F := Ideal) V c).flushed 2 t
      = ((cfg5.win 2).blk t).view.read (Elt Ideal) (Cert.Gcn.K.biasRelu (V c main_v78) (V c main_v79)) := by
  show (cfg5.win 2).cut (grid5.coords t) ((dat5 V c).after 2 t) = _
  rw [after5_2]
  unfold out5_2
  rw [View.canon_unit_zero zeroOff]
  simp only [View.ld_unit_zero (S := S10000x30) zeroOff, View.ld_unit_zero (S := S1x30) zeroOff]
  obtain ⟨e00, e01, e10, e11, e20, e21⟩ := idx5 t
  funext j
  obtain ⟨p, q, rfl⟩ : ∃ (p : Fin 10000) (q : Fin 30), j = ix2 p q := ⟨j 0, j 1, eq_ix2 j⟩
  show k5_pay1 (iblk5 V c 0 t) (iblk5 V c 1 t) (ix2 p q)
      = Cert.Gcn.K.biasRelu (V c main_v78) (V c main_v79) (((cfg5.win 2).blk t).view.emb (ix2 p q))
  refine (pay5_apply (iblk5 V c 0 t) (iblk5 V c 1 t) p q).trans ?_
  -- the input block's entry sits in its array where the output block's entry sits in its own
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 30 + 1 * q.val = win5_2.index t (1 : Fin 2) * 30 + 1 * q.val; omega
  -- the bias row's entry is the one of the output entry's column
  have h1 : ((cfg5.win 1).blk t).view.emb (ix2 (0 : Fin 1) q)
      = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 30 + 1 * q.val = win5_2.index t (1 : Fin 2) * 30 + 1 * q.val; omega
  exact clip_congr (V c main_v78) (V c main_v79) h0 h1

/-- An entry of the array is in point t's block iff each coordinate is in the block's range on its axis. -/
theorem mem_blk5 (t : Fin cfg5.N) (i : S100000x30.Idx) :
    i ∈ ((cfg5.win 2).blk t).view.set ↔ ∀ a : Fin 2, win5_2.index t a * S10000x30.size a ≤ (i a).val
      ∧ (i a).val < win5_2.index t a * S10000x30.size a + S10000x30.size a := by
  show i ∈ ((View.whole main_v80).slice (win5_2.rect t)).set ↔ _
  rw [View.set_slice_whole, Rect.mem_set_unit]
  exact Iff.rfl

/-- Every entry of the array is written: row r lies in the block of point r / 10000. -/
theorem cover5 (i : S100000x30.Idx) :
    ∃ t : Fin cfg5.N, (cfg5.win 2).flush t = true ∧ i ∈ ((cfg5.win 2).blk t).view.set := by
  have hi0 : (i 0).val < 100000 := (i 0).isLt
  have hi1 : (i 1).val < 30 := (i 1).isLt
  obtain ⟨t, ht⟩ : ∃ t : Fin cfg5.N, t.val = (i 0).val / 10000 :=
    ⟨⟨(i 0).val / 10000, by show (i 0).val / 10000 < 10; omega⟩, rfl⟩
  obtain ⟨-, -, -, -, e20, e21⟩ := idx5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 30 ≤ (i 1).val ∧ (i 1).val < win5_2.index t (1 : Fin 2) * 30 + 30; omega

/-- The array after the region: the bias-and-clip of the two arrays the region found, entry by entry. -/
theorem arr5 (c : Dev nD) : (dat5 (F := Ideal) V c).arrAt 2 cfg5.N = Cert.Gcn.K.biasRelu (V c main_v78) (V c main_v79) :=
  (dat5 (F := Ideal) V c).arrAt_eq_of_cover 2 _ (fun t _ => flushed5_eq V c t) cover5

end Cert.Gcn.RegionBias

end
-- ==== Proof.Carry.lean ====
/-
  Which buffers come through which stretches of @main untouched: an argument array is written by no host operation and by no
  region, so it holds its launch contents at every boundary; the source words, the message weights and the padded destination
  words are written once, before the first layer, and read again in each later layer.
-/
import proofs.«164660_j53764400611947_1_alg».proof.Proof.Gen.KernelIdeal.Frame

set_option maxRecDepth 16384

noncomputable section

namespace Cert.Gcn.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## One stretch at a time

Across a host stretch a buffer keeps its contents when it is the result of none of the stretch's operations; across a
region, when it is none of the region's three arrays. Lemma sJ_b: buffer main_b holds at boundary J what it held at
boundary J - 1. -/

private theorem s1_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

private theorem s1_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg3 (c : Dev nD) : W2 m ρ c (Proc.devRef .tc main_arg3) = W1 m ρ c (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg3 (c : Dev nD) : W4 m ρ c (Proc.devRef .tc main_arg3) = W3 m ρ c (Proc.devRef .tc main_arg3) :=
  StableHlo.after_of_forall_not_mem (b := Proc.devRef .tc main_arg3) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

private theorem s1_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg4 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg4 (c : Dev nD) : W4 m ρ c (Proc.devRef .tc main_arg4) = W3 m ρ c (Proc.devRef .tc main_arg4) :=
  StableHlo.after_of_forall_not_mem (b := Proc.devRef .tc main_arg4) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg4 (c : Dev nD) : W5 m ρ c (Proc.devRef .tc main_arg4) = W4 m ρ c (Proc.devRef .tc main_arg4) :=
  W5_of_ne m ρ c main_arg4 (by decide)

private theorem s1_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg5 (c : Dev nD) : W2 m ρ c (Proc.devRef .tc main_arg5) = W1 m ρ c (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg5 (c : Dev nD) : W4 m ρ c (Proc.devRef .tc main_arg5) = W3 m ρ c (Proc.devRef .tc main_arg5) :=
  StableHlo.after_of_forall_not_mem (b := Proc.devRef .tc main_arg5) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg5 (c : Dev nD) : W5 m ρ c (Proc.devRef .tc main_arg5) = W4 m ρ c (Proc.devRef .tc main_arg5) :=
  W5_of_ne m ρ c main_arg5 (by decide)
private theorem s6_arg5 (c : Dev nD) : W6 m ρ c (Proc.devRef .tc main_arg5) = W5 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_arg5 (c : Dev nD) : W7 m ρ c (Proc.devRef .tc main_arg5) = W6 m ρ c (Proc.devRef .tc main_arg5) :=
  W7_of_ne m ρ c main_arg5 (by decide)
private theorem s8_arg5 (c : Dev nD) : W8 m ρ c (Proc.devRef .tc main_arg5) = W7 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_arg5 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

private theorem s1_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg6 (c : Dev nD) : W2 m ρ c (Proc.devRef .tc main_arg6) = W1 m ρ c (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg6 (c : Dev nD) : W4 m ρ c (Proc.devRef .tc main_arg6) = W3 m ρ c (Proc.devRef .tc main_arg6) :=
  StableHlo.after_of_forall_not_mem (b := Proc.devRef .tc main_arg6) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg6 (c : Dev nD) : W5 m ρ c (Proc.devRef .tc main_arg6) = W4 m ρ c (Proc.devRef .tc main_arg6) :=
  W5_of_ne m ρ c main_arg6 (by decide)
private theorem s6_arg6 (c : Dev nD) : W6 m ρ c (Proc.devRef .tc main_arg6) = W5 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_arg6 (c : Dev nD) : W7 m ρ c (Proc.devRef .tc main_arg6) = W6 m ρ c (Proc.devRef .tc main_arg6) :=
  W7_of_ne m ρ c main_arg6 (by decide)
private theorem s8_arg6 (c : Dev nD) : W8 m ρ c (Proc.devRef .tc main_arg6) = W7 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_arg6 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_arg6 (c : Dev nD) : W10 m ρ c (Proc.devRef .tc main_arg6) = W9 m ρ c (Proc.devRef .tc main_arg6) :=
  W10_of_ne m ρ c main_arg6 (by decide)

private theorem s1_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg7 (c : Dev nD) : W2 m ρ c (Proc.devRef .tc main_arg7) = W1 m ρ c (Proc.devRef .tc main_arg7) :=
  StableHlo.after_of_forall_not_mem (b := Proc.devRef .tc main_arg7) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg7 (c : Dev nD) : W4 m ρ c (Proc.devRef .tc main_arg7) = W3 m ρ c (Proc.devRef .tc main_arg7) :=
  StableHlo.after_of_forall_not_mem (b := Proc.devRef .tc main_arg7) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg7 (c : Dev nD) : W5 m ρ c (Proc.devRef .tc main_arg7) = W4 m ρ c (Proc.devRef .tc main_arg7) :=
  W5_of_ne m ρ c main_arg7 (by decide)
private theorem s6_arg7 (c : Dev nD) : W6 m ρ c (Proc.devRef .tc main_arg7) = W5 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_arg7 (c : Dev nD) : W7 m ρ c (Proc.devRef .tc main_arg7) = W6 m ρ c (Proc.devRef .tc main_arg7) :=
  W7_of_ne m ρ c main_arg7 (by decide)
private theorem s8_arg7 (c : Dev nD) : W8 m ρ c (Proc.devRef .tc main_arg7) = W7 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_arg7 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_arg7 (c : Dev nD) : W10 m ρ c (Proc.devRef .tc main_arg7) = W9 m ρ c (Proc.devRef .tc main_arg7) :=
  W10_of_ne m ρ c main_arg7 (by decide)
private theorem s11_arg7 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_arg7 (c : Dev nD) : W12 m ρ c (Proc.devRef .tc main_arg7) = W11 m ρ c (Proc.devRef .tc main_arg7) :=
  W12_of_ne m ρ c main_arg7 (by decide)
private theorem s13_arg7 (c : Dev nD) : W13 m ρ c (Proc.devRef .tc main_arg7) = W12 m ρ c (Proc.devRef .tc main_arg7) :=
  StableHlo.after_of_forall_not_mem (b := Proc.devRef .tc main_arg7) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s14_arg7 (c : Dev nD) : W14 m ρ c (Proc.devRef .tc main_arg7) = W13 m ρ c (Proc.devRef .tc main_arg7) :=
  StableHlo.after_of_forall_not_mem (b := Proc.devRef .tc main_arg7) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

private theorem s1_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg8 (c : Dev nD) : W2 m ρ c (Proc.devRef .tc main_arg8) = W1 m ρ c (Proc.devRef .tc main_arg8) :=
  StableHlo.after_of_forall_not_mem (b := Proc.devRef .tc main_arg8) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg8 (c : Dev nD) : W4 m ρ c (Proc.devRef .tc main_arg8) = W3 m ρ c (Proc.devRef .tc main_arg8) :=
  StableHlo.after_of_forall_not_mem (b := Proc.devRef .tc main_arg8) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg8 (c : Dev nD) : W5 m ρ c (Proc.devRef .tc main_arg8) = W4 m ρ c (Proc.devRef .tc main_arg8) :=
  W5_of_ne m ρ c main_arg8 (by decide)
private theorem s6_arg8 (c : Dev nD) : W6 m ρ c (Proc.devRef .tc main_arg8) = W5 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_arg8 (c : Dev nD) : W7 m ρ c (Proc.devRef .tc main_arg8) = W6 m ρ c (Proc.devRef .tc main_arg8) :=
  W7_of_ne m ρ c main_arg8 (by decide)
private theorem s8_arg8 (c : Dev nD) : W8 m ρ c (Proc.devRef .tc main_arg8) = W7 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_arg8 (c : Dev nD) : W10 m ρ c (Proc.devRef .tc main_arg8) = W9 m ρ c (Proc.devRef .tc main_arg8) :=
  W10_of_ne m ρ c main_arg8 (by decide)
private theorem s11_arg8 (c : Dev nD) : W11 m ρ c (Proc.devRef .tc main_arg8) = W10 m ρ c (Proc.devRef .tc main_arg8) :=
  StableHlo.after_of_forall_not_mem (b := Proc.devRef .tc main_arg8) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_arg8 (c : Dev nD) : W12 m ρ c (Proc.devRef .tc main_arg8) = W11 m ρ c (Proc.devRef .tc main_arg8) :=
  W12_of_ne m ρ c main_arg8 (by decide)
private theorem s13_arg8 (c : Dev nD) : W13 m ρ c (Proc.devRef .tc main_arg8) = W12 m ρ c (Proc.devRef .tc main_arg8) :=
  StableHlo.after_of_forall_not_mem (b := Proc.devRef .tc main_arg8) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s14_arg8 (c : Dev nD) : W14 m ρ c (Proc.devRef .tc main_arg8) = W13 m ρ c (Proc.devRef .tc main_arg8) :=
  StableHlo.after_of_forall_not_mem (b := Proc.devRef .tc main_arg8) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s15_arg8 (c : Dev nD) : W15 m ρ c (Proc.devRef .tc main_arg8) = W14 m ρ c (Proc.devRef .tc main_arg8) :=
  W15_of_ne m ρ c main_arg8 (by decide)

private theorem s1_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg2 (c : Dev nD) : W2 m ρ c (Proc.devRef .tc main_arg2) = W1 m ρ c (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg2 (c : Dev nD) : W4 m ρ c (Proc.devRef .tc main_arg2) = W3 m ρ c (Proc.devRef .tc main_arg2) :=
  StableHlo.after_of_forall_not_mem (b := Proc.devRef .tc main_arg2) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg2 (c : Dev nD) : W5 m ρ c (Proc.devRef .tc main_arg2) = W4 m ρ c (Proc.devRef .tc main_arg2) :=
  W5_of_ne m ρ c main_arg2 (by decide)
private theorem s6_arg2 (c : Dev nD) : W6 m ρ c (Proc.devRef .tc main_arg2) = W5 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_arg2 (c : Dev nD) : W7 m ρ c (Proc.devRef .tc main_arg2) = W6 m ρ c (Proc.devRef .tc main_arg2) :=
  W7_of_ne m ρ c main_arg2 (by decide)
private theorem s8_arg2 (c : Dev nD) : W8 m ρ c (Proc.devRef .tc main_arg2) = W7 m ρ c (Proc.devRef .tc main_arg2) :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_arg2 (c : Dev nD) : W9 m ρ c (Proc.devRef .tc main_arg2) = W8 m ρ c (Proc.devRef .tc main_arg2) :=
  StableHlo.after_of_forall_not_mem (b := Proc.devRef .tc main_arg2) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_arg2 (c : Dev nD) : W10 m ρ c (Proc.devRef .tc main_arg2) = W9 m ρ c (Proc.devRef .tc main_arg2) :=
  W10_of_ne m ρ c main_arg2 (by decide)
private theorem s11_arg2 (c : Dev nD) : W11 m ρ c (Proc.devRef .tc main_arg2) = W10 m ρ c (Proc.devRef .tc main_arg2) :=
  StableHlo.after_of_forall_not_mem (b := Proc.devRef .tc main_arg2) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_arg2 (c : Dev nD) : W12 m ρ c (Proc.devRef .tc main_arg2) = W11 m ρ c (Proc.devRef .tc main_arg2) :=
  W12_of_ne m ρ c main_arg2 (by decide)
private theorem s13_arg2 (c : Dev nD) : W13 m ρ c (Proc.devRef .tc main_arg2) = W12 m ρ c (Proc.devRef .tc main_arg2) :=
  StableHlo.after_of_forall_not_mem (b := Proc.devRef .tc main_arg2) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s14_arg2 (c : Dev nD) : W14 m ρ c (Proc.devRef .tc main_arg2) = W13 m ρ c (Proc.devRef .tc main_arg2) :=
  StableHlo.after_of_forall_not_mem (b := Proc.devRef .tc main_arg2) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s15_arg2 (c : Dev nD) : W15 m ρ c (Proc.devRef .tc main_arg2) = W14 m ρ c (Proc.devRef .tc main_arg2) :=
  W15_of_ne m ρ c main_arg2 (by decide)
private theorem s16_arg2 (c : Dev nD) : W16 m ρ c (Proc.devRef .tc main_arg2) = W15 m ρ c (Proc.devRef .tc main_arg2) :=
  StableHlo.after_of_forall_not_mem (b := Proc.devRef .tc main_arg2) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s17_arg2 (c : Dev nD) : W17 m ρ c (Proc.devRef .tc main_arg2) = W16 m ρ c (Proc.devRef .tc main_arg2) :=
  W17_of_ne m ρ c main_arg2 (by decide)

private theorem s1_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg9 (c : Dev nD) : W2 m ρ c (Proc.devRef .tc main_arg9) = W1 m ρ c (Proc.devRef .tc main_arg9) :=
  StableHlo.after_of_forall_not_mem (b := Proc.devRef .tc main_arg9) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg9 (c : Dev nD) : W4 m ρ c (Proc.devRef .tc main_arg9) = W3 m ρ c (Proc.devRef .tc main_arg9) :=
  StableHlo.after_of_forall_not_mem (b := Proc.devRef .tc main_arg9) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg9 (c : Dev nD) : W5 m ρ c (Proc.devRef .tc main_arg9) = W4 m ρ c (Proc.devRef .tc main_arg9) :=
  W5_of_ne m ρ c main_arg9 (by decide)
private theorem s6_arg9 (c : Dev nD) : W6 m ρ c (Proc.devRef .tc main_arg9) = W5 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_arg9 (c : Dev nD) : W7 m ρ c (Proc.devRef .tc main_arg9) = W6 m ρ c (Proc.devRef .tc main_arg9) :=
  W7_of_ne m ρ c main_arg9 (by decide)
private theorem s8_arg9 (c : Dev nD) : W8 m ρ c (Proc.devRef .tc main_arg9) = W7 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_arg9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_arg9 (c : Dev nD) : W10 m ρ c (Proc.devRef .tc main_arg9) = W9 m ρ c (Proc.devRef .tc main_arg9) :=
  W10_of_ne m ρ c main_arg9 (by decide)
private theorem s11_arg9 (c : Dev nD) : W11 m ρ c (Proc.devRef .tc main_arg9) = W10 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_arg9 (c : Dev nD) : W12 m ρ c (Proc.devRef .tc main_arg9) = W11 m ρ c (Proc.devRef .tc main_arg9) :=
  W12_of_ne m ρ c main_arg9 (by decide)
private theorem s13_arg9 (c : Dev nD) : W13 m ρ c (Proc.devRef .tc main_arg9) = W12 m ρ c (Proc.devRef .tc main_arg9) :=
  StableHlo.after_of_forall_not_mem (b := Proc.devRef .tc main_arg9) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s14_arg9 (c : Dev nD) : W14 m ρ c (Proc.devRef .tc main_arg9) = W13 m ρ c (Proc.devRef .tc main_arg9) :=
  StableHlo.after_of_forall_not_mem (b := Proc.devRef .tc main_arg9) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s15_arg9 (c : Dev nD) : W15 m ρ c (Proc.devRef .tc main_arg9) = W14 m ρ c (Proc.devRef .tc main_arg9) :=
  W15_of_ne m ρ c main_arg9 (by decide)
private theorem s16_arg9 (c : Dev nD) : W16 m ρ c (Proc.devRef .tc main_arg9) = W15 m ρ c (Proc.devRef .tc main_arg9) :=
  StableHlo.after_of_forall_not_mem (b := Proc.devRef .tc main_arg9) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s17_arg9 (c : Dev nD) : W17 m ρ c (Proc.devRef .tc main_arg9) = W16 m ρ c (Proc.devRef .tc main_arg9) :=
  W17_of_ne m ρ c main_arg9 (by decide)

private theorem s1_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s2_arg10 (c : Dev nD) : W2 m ρ c (Proc.devRef .tc main_arg10) = W1 m ρ c (Proc.devRef .tc main_arg10) :=
  StableHlo.after_of_forall_not_mem (b := Proc.devRef .tc main_arg10) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_arg10 (c : Dev nD) : W4 m ρ c (Proc.devRef .tc main_arg10) = W3 m ρ c (Proc.devRef .tc main_arg10) :=
  StableHlo.after_of_forall_not_mem (b := Proc.devRef .tc main_arg10) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_arg10 (c : Dev nD) : W5 m ρ c (Proc.devRef .tc main_arg10) = W4 m ρ c (Proc.devRef .tc main_arg10) :=
  W5_of_ne m ρ c main_arg10 (by decide)
private theorem s6_arg10 (c : Dev nD) : W6 m ρ c (Proc.devRef .tc main_arg10) = W5 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_arg10 (c : Dev nD) : W7 m ρ c (Proc.devRef .tc main_arg10) = W6 m ρ c (Proc.devRef .tc main_arg10) :=
  W7_of_ne m ρ c main_arg10 (by decide)
private theorem s8_arg10 (c : Dev nD) : W8 m ρ c (Proc.devRef .tc main_arg10) = W7 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_arg10 (c : Dev nD) : W9 m ρ c (Proc.devRef .tc main_arg10) = W8 m ρ c (Proc.devRef .tc main_arg10) :=
  StableHlo.after_of_forall_not_mem (b := Proc.devRef .tc main_arg10) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_arg10 (c : Dev nD) : W10 m ρ c (Proc.devRef .tc main_arg10) = W9 m ρ c (Proc.devRef .tc main_arg10) :=
  W10_of_ne m ρ c main_arg10 (by decide)
private theorem s11_arg10 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_arg10 (c : Dev nD) : W12 m ρ c (Proc.devRef .tc main_arg10) = W11 m ρ c (Proc.devRef .tc main_arg10) :=
  W12_of_ne m ρ c main_arg10 (by decide)
private theorem s13_arg10 (c : Dev nD) : W13 m ρ c (Proc.devRef .tc main_arg10) = W12 m ρ c (Proc.devRef .tc main_arg10) :=
  StableHlo.after_of_forall_not_mem (b := Proc.devRef .tc main_arg10) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s14_arg10 (c : Dev nD) : W14 m ρ c (Proc.devRef .tc main_arg10) = W13 m ρ c (Proc.devRef .tc main_arg10) :=
  StableHlo.after_of_forall_not_mem (b := Proc.devRef .tc main_arg10) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s15_arg10 (c : Dev nD) : W15 m ρ c (Proc.devRef .tc main_arg10) = W14 m ρ c (Proc.devRef .tc main_arg10) :=
  W15_of_ne m ρ c main_arg10 (by decide)
private theorem s16_arg10 (c : Dev nD) : W16 m ρ c (Proc.devRef .tc main_arg10) = W15 m ρ c (Proc.devRef .tc main_arg10) :=
  StableHlo.after_of_forall_not_mem (b := Proc.devRef .tc main_arg10) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s17_arg10 (c : Dev nD) : W17 m ρ c (Proc.devRef .tc main_arg10) = W16 m ρ c (Proc.devRef .tc main_arg10) :=
  W17_of_ne m ρ c main_arg10 (by decide)

private theorem s2_v3 (c : Dev nD) : W2 m ρ c (Proc.devRef .tc main_v3) = W1 m ρ c (Proc.devRef .tc main_v3) :=
  StableHlo.after_of_forall_not_mem (b := Proc.devRef .tc main_v3) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_v3 (c : Dev nD) : W4 m ρ c (Proc.devRef .tc main_v3) = W3 m ρ c (Proc.devRef .tc main_v3) :=
  StableHlo.after_of_forall_not_mem (b := Proc.devRef .tc main_v3) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_v3 (c : Dev nD) : W5 m ρ c (Proc.devRef .tc main_v3) = W4 m ρ c (Proc.devRef .tc main_v3) :=
  W5_of_ne m ρ c main_v3 (by decide)
private theorem s6_v3 (c : Dev nD) : W6 m ρ c (Proc.devRef .tc main_v3) = W5 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_v3 (c : Dev nD) : W7 m ρ c (Proc.devRef .tc main_v3) = W6 m ρ c (Proc.devRef .tc main_v3) :=
  W7_of_ne m ρ c main_v3 (by decide)
private theorem s8_v3 (c : Dev nD) : W8 m ρ c (Proc.devRef .tc main_v3) = W7 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_v3 (c : Dev nD) : W9 m ρ c (Proc.devRef .tc main_v3) = W8 m ρ c (Proc.devRef .tc main_v3) :=
  StableHlo.after_of_forall_not_mem (b := Proc.devRef .tc main_v3) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_v3 (c : Dev nD) : W10 m ρ c (Proc.devRef .tc main_v3) = W9 m ρ c (Proc.devRef .tc main_v3) :=
  W10_of_ne m ρ c main_v3 (by decide)
private theorem s11_v3 (c : Dev nD) : W11 m ρ c (Proc.devRef .tc main_v3) = W10 m ρ c (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_v3 (c : Dev nD) : W12 m ρ c (Proc.devRef .tc main_v3) = W11 m ρ c (Proc.devRef .tc main_v3) :=
  W12_of_ne m ρ c main_v3 (by decide)

private theorem s2_v28 (c : Dev nD) : W2 m ρ c (Proc.devRef .tc main_v28) = W1 m ρ c (Proc.devRef .tc main_v28) :=
  StableHlo.after_of_forall_not_mem (b := Proc.devRef .tc main_v28) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s3_v28 (c : Dev nD) : W3 m ρ c (Proc.devRef .tc main_v28) = W2 m ρ c (Proc.devRef .tc main_v28) :=
  StableHlo.after_of_forall_not_mem (b := Proc.devRef .tc main_v28) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_v28 (c : Dev nD) : W4 m ρ c (Proc.devRef .tc main_v28) = W3 m ρ c (Proc.devRef .tc main_v28) :=
  StableHlo.after_of_forall_not_mem (b := Proc.devRef .tc main_v28) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_v28 (c : Dev nD) : W5 m ρ c (Proc.devRef .tc main_v28) = W4 m ρ c (Proc.devRef .tc main_v28) :=
  W5_of_ne m ρ c main_v28 (by decide)
private theorem s6_v28 (c : Dev nD) : W6 m ρ c (Proc.devRef .tc main_v28) = W5 m ρ c (Proc.devRef .tc main_v28) :=
  StableHlo.after_of_forall_not_mem (b := Proc.devRef .tc main_v28) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_v28 (c : Dev nD) : W7 m ρ c (Proc.devRef .tc main_v28) = W6 m ρ c (Proc.devRef .tc main_v28) :=
  W7_of_ne m ρ c main_v28 (by decide)
private theorem s8_v28 (c : Dev nD) : W8 m ρ c (Proc.devRef .tc main_v28) = W7 m ρ c (Proc.devRef .tc main_v28) :=
  StableHlo.after_of_forall_not_mem (b := Proc.devRef .tc main_v28) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_v28 (c : Dev nD) : W9 m ρ c (Proc.devRef .tc main_v28) = W8 m ρ c (Proc.devRef .tc main_v28) :=
  StableHlo.after_of_forall_not_mem (b := Proc.devRef .tc main_v28) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_v28 (c : Dev nD) : W10 m ρ c (Proc.devRef .tc main_v28) = W9 m ρ c (Proc.devRef .tc main_v28) :=
  W10_of_ne m ρ c main_v28 (by decide)
private theorem s11_v28 (c : Dev nD) : W11 m ρ c (Proc.devRef .tc main_v28) = W10 m ρ c (Proc.devRef .tc main_v28) :=
  StableHlo.after_of_forall_not_mem (b := Proc.devRef .tc main_v28) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_v28 (c : Dev nD) : W12 m ρ c (Proc.devRef .tc main_v28) = W11 m ρ c (Proc.devRef .tc main_v28) :=
  W12_of_ne m ρ c main_v28 (by decide)

private theorem s3_v29 (c : Dev nD) : W3 m ρ c (Proc.devRef .tc main_v29) = W2 m ρ c (Proc.devRef .tc main_v29) :=
  StableHlo.after_of_forall_not_mem (b := Proc.devRef .tc main_v29) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s4_v29 (c : Dev nD) : W4 m ρ c (Proc.devRef .tc main_v29) = W3 m ρ c (Proc.devRef .tc main_v29) :=
  StableHlo.after_of_forall_not_mem (b := Proc.devRef .tc main_v29) _ _ (List.forall_iff_forall_mem.mp (by
    simp only [hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s5_v29 (c : Dev nD) : W5 m ρ c (Proc.devRef .tc main_v29) = W4 m ρ c (Proc.devRef .tc main_v29) :=
  W5_of_ne m ρ c main_v29 (by decide)
private theorem s6_v29 (c : Dev nD) : W6 m ρ c (Proc.devRef .tc main_v29) = W5 m ρ c (Proc.devRef .tc main_v29) :=
  StableHlo.after_of_forall_not_mem (b := Proc.devRef .tc main_v29) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s7_v29 (c : Dev nD) : W7 m ρ c (Proc.devRef .tc main_v29) = W6 m ρ c (Proc.devRef .tc main_v29) :=
  W7_of_ne m ρ c main_v29 (by decide)
private theorem s8_v29 (c : Dev nD) : W8 m ρ c (Proc.devRef .tc main_v29) = W7 m ρ c (Proc.devRef .tc main_v29) :=
  StableHlo.after_of_forall_not_mem (b := Proc.devRef .tc main_v29) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s9_v29 (c : Dev nD) : W9 m ρ c (Proc.devRef .tc main_v29) = W8 m ρ c (Proc.devRef .tc main_v29) :=
  StableHlo.after_of_forall_not_mem (b := Proc.devRef .tc main_v29) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s10_v29 (c : Dev nD) : W10 m ρ c (Proc.devRef .tc main_v29) = W9 m ρ c (Proc.devRef .tc main_v29) :=
  W10_of_ne m ρ c main_v29 (by decide)
private theorem s11_v29 (c : Dev nD) : W11 m ρ c (Proc.devRef .tc main_v29) = W10 m ρ c (Proc.devRef .tc main_v29) :=
  StableHlo.after_of_forall_not_mem (b := Proc.devRef .tc main_v29) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s12_v29 (c : Dev nD) : W12 m ρ c (Proc.devRef .tc main_v29) = W11 m ρ c (Proc.devRef .tc main_v29) :=
  W12_of_ne m ρ c main_v29 (by decide)
private theorem s13_v29 (c : Dev nD) : W13 m ρ c (Proc.devRef .tc main_v29) = W12 m ρ c (Proc.devRef .tc main_v29) :=
  StableHlo.after_of_forall_not_mem (b := Proc.devRef .tc main_v29) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s14_v29 (c : Dev nD) : W14 m ρ c (Proc.devRef .tc main_v29) = W13 m ρ c (Proc.devRef .tc main_v29) :=
  StableHlo.after_of_forall_not_mem (b := Proc.devRef .tc main_v29) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
private theorem s15_v29 (c : Dev nD) : W15 m ρ c (Proc.devRef .tc main_v29) = W14 m ρ c (Proc.devRef .tc main_v29) :=
  W15_of_ne m ρ c main_v29 (by decide)

/-! ## The stretches chained

An argument array is followed back to the launch memory; a host-made buffer, back to the boundary just after the stretch
that writes it. -/

theorem arg0_at2 (c : Dev nD) : W2 m ρ c (Proc.devRef .tc main_arg0) = m ((c : Thread nD τ).loc main_arg0) := by
  calc W2 m ρ c (Proc.devRef .tc main_arg0)
    _ = W1 m ρ c (Proc.devRef .tc main_arg0) := s2_arg0 m ρ c
    _ = W0 m ρ c (Proc.devRef .tc main_arg0) := s1_arg0 m ρ c
    _ = m ((c : Thread nD τ).loc main_arg0) := rfl
theorem arg3_at4 (c : Dev nD) : W4 m ρ c (Proc.devRef .tc main_arg3) = m ((c : Thread nD τ).loc main_arg3) := by
  calc W4 m ρ c (Proc.devRef .tc main_arg3)
    _ = W3 m ρ c (Proc.devRef .tc main_arg3) := s4_arg3 m ρ c
    _ = W2 m ρ c (Proc.devRef .tc main_arg3) := s3_arg3 m ρ c
    _ = W1 m ρ c (Proc.devRef .tc main_arg3) := s2_arg3 m ρ c
    _ = W0 m ρ c (Proc.devRef .tc main_arg3) := s1_arg3 m ρ c
    _ = m ((c : Thread nD τ).loc main_arg3) := rfl
theorem arg4_at5 (c : Dev nD) : W5 m ρ c (Proc.devRef .tc main_arg4) = m ((c : Thread nD τ).loc main_arg4) := by
  calc W5 m ρ c (Proc.devRef .tc main_arg4)
    _ = W4 m ρ c (Proc.devRef .tc main_arg4) := s5_arg4 m ρ c
    _ = W3 m ρ c (Proc.devRef .tc main_arg4) := s4_arg4 m ρ c
    _ = W2 m ρ c (Proc.devRef .tc main_arg4) := s3_arg4 m ρ c
    _ = W1 m ρ c (Proc.devRef .tc main_arg4) := s2_arg4 m ρ c
    _ = W0 m ρ c (Proc.devRef .tc main_arg4) := s1_arg4 m ρ c
    _ = m ((c : Thread nD τ).loc main_arg4) := rfl
theorem arg5_at9 (c : Dev nD) : W9 m ρ c (Proc.devRef .tc main_arg5) = m ((c : Thread nD τ).loc main_arg5) := by
  calc W9 m ρ c (Proc.devRef .tc main_arg5)
    _ = W8 m ρ c (Proc.devRef .tc main_arg5) := s9_arg5 m ρ c
    _ = W7 m ρ c (Proc.devRef .tc main_arg5) := s8_arg5 m ρ c
    _ = W6 m ρ c (Proc.devRef .tc main_arg5) := s7_arg5 m ρ c
    _ = W5 m ρ c (Proc.devRef .tc main_arg5) := s6_arg5 m ρ c
    _ = W4 m ρ c (Proc.devRef .tc main_arg5) := s5_arg5 m ρ c
    _ = W3 m ρ c (Proc.devRef .tc main_arg5) := s4_arg5 m ρ c
    _ = W2 m ρ c (Proc.devRef .tc main_arg5) := s3_arg5 m ρ c
    _ = W1 m ρ c (Proc.devRef .tc main_arg5) := s2_arg5 m ρ c
    _ = W0 m ρ c (Proc.devRef .tc main_arg5) := s1_arg5 m ρ c
    _ = m ((c : Thread nD τ).loc main_arg5) := rfl
theorem arg6_at10 (c : Dev nD) : W10 m ρ c (Proc.devRef .tc main_arg6) = m ((c : Thread nD τ).loc main_arg6) := by
  calc W10 m ρ c (Proc.devRef .tc main_arg6)
    _ = W9 m ρ c (Proc.devRef .tc main_arg6) := s10_arg6 m ρ c
    _ = W8 m ρ c (Proc.devRef .tc main_arg6) := s9_arg6 m ρ c
    _ = W7 m ρ c (Proc.devRef .tc main_arg6) := s8_arg6 m ρ c
    _ = W6 m ρ c (Proc.devRef .tc main_arg6) := s7_arg6 m ρ c
    _ = W5 m ρ c (Proc.devRef .tc main_arg6) := s6_arg6 m ρ c
    _ = W4 m ρ c (Proc.devRef .tc main_arg6) := s5_arg6 m ρ c
    _ = W3 m ρ c (Proc.devRef .tc main_arg6) := s4_arg6 m ρ c
    _ = W2 m ρ c (Proc.devRef .tc main_arg6) := s3_arg6 m ρ c
    _ = W1 m ρ c (Proc.devRef .tc main_arg6) := s2_arg6 m ρ c
    _ = W0 m ρ c (Proc.devRef .tc main_arg6) := s1_arg6 m ρ c
    _ = m ((c : Thread nD τ).loc main_arg6) := rfl
theorem arg7_at14 (c : Dev nD) : W14 m ρ c (Proc.devRef .tc main_arg7) = m ((c : Thread nD τ).loc main_arg7) := by
  calc W14 m ρ c (Proc.devRef .tc main_arg7)
    _ = W13 m ρ c (Proc.devRef .tc main_arg7) := s14_arg7 m ρ c
    _ = W12 m ρ c (Proc.devRef .tc main_arg7) := s13_arg7 m ρ c
    _ = W11 m ρ c (Proc.devRef .tc main_arg7) := s12_arg7 m ρ c
    _ = W10 m ρ c (Proc.devRef .tc main_arg7) := s11_arg7 m ρ c
    _ = W9 m ρ c (Proc.devRef .tc main_arg7) := s10_arg7 m ρ c
    _ = W8 m ρ c (Proc.devRef .tc main_arg7) := s9_arg7 m ρ c
    _ = W7 m ρ c (Proc.devRef .tc main_arg7) := s8_arg7 m ρ c
    _ = W6 m ρ c (Proc.devRef .tc main_arg7) := s7_arg7 m ρ c
    _ = W5 m ρ c (Proc.devRef .tc main_arg7) := s6_arg7 m ρ c
    _ = W4 m ρ c (Proc.devRef .tc main_arg7) := s5_arg7 m ρ c
    _ = W3 m ρ c (Proc.devRef .tc main_arg7) := s4_arg7 m ρ c
    _ = W2 m ρ c (Proc.devRef .tc main_arg7) := s3_arg7 m ρ c
    _ = W1 m ρ c (Proc.devRef .tc main_arg7) := s2_arg7 m ρ c
    _ = W0 m ρ c (Proc.devRef .tc main_arg7) := s1_arg7 m ρ c
    _ = m ((c : Thread nD τ).loc main_arg7) := rfl
theorem arg8_at15 (c : Dev nD) : W15 m ρ c (Proc.devRef .tc main_arg8) = m ((c : Thread nD τ).loc main_arg8) := by
  calc W15 m ρ c (Proc.devRef .tc main_arg8)
    _ = W14 m ρ c (Proc.devRef .tc main_arg8) := s15_arg8 m ρ c
    _ = W13 m ρ c (Proc.devRef .tc main_arg8) := s14_arg8 m ρ c
    _ = W12 m ρ c (Proc.devRef .tc main_arg8) := s13_arg8 m ρ c
    _ = W11 m ρ c (Proc.devRef .tc main_arg8) := s12_arg8 m ρ c
    _ = W10 m ρ c (Proc.devRef .tc main_arg8) := s11_arg8 m ρ c
    _ = W9 m ρ c (Proc.devRef .tc main_arg8) := s10_arg8 m ρ c
    _ = W8 m ρ c (Proc.devRef .tc main_arg8) := s9_arg8 m ρ c
    _ = W7 m ρ c (Proc.devRef .tc main_arg8) := s8_arg8 m ρ c
    _ = W6 m ρ c (Proc.devRef .tc main_arg8) := s7_arg8 m ρ c
    _ = W5 m ρ c (Proc.devRef .tc main_arg8) := s6_arg8 m ρ c
    _ = W4 m ρ c (Proc.devRef .tc main_arg8) := s5_arg8 m ρ c
    _ = W3 m ρ c (Proc.devRef .tc main_arg8) := s4_arg8 m ρ c
    _ = W2 m ρ c (Proc.devRef .tc main_arg8) := s3_arg8 m ρ c
    _ = W1 m ρ c (Proc.devRef .tc main_arg8) := s2_arg8 m ρ c
    _ = W0 m ρ c (Proc.devRef .tc main_arg8) := s1_arg8 m ρ c
    _ = m ((c : Thread nD τ).loc main_arg8) := rfl
theorem arg2_at17 (c : Dev nD) : W17 m ρ c (Proc.devRef .tc main_arg2) = m ((c : Thread nD τ).loc main_arg2) := by
  calc W17 m ρ c (Proc.devRef .tc main_arg2)
    _ = W16 m ρ c (Proc.devRef .tc main_arg2) := s17_arg2 m ρ c
    _ = W15 m ρ c (Proc.devRef .tc main_arg2) := s16_arg2 m ρ c
    _ = W14 m ρ c (Proc.devRef .tc main_arg2) := s15_arg2 m ρ c
    _ = W13 m ρ c (Proc.devRef .tc main_arg2) := s14_arg2 m ρ c
    _ = W12 m ρ c (Proc.devRef .tc main_arg2) := s13_arg2 m ρ c
    _ = W11 m ρ c (Proc.devRef .tc main_arg2) := s12_arg2 m ρ c
    _ = W10 m ρ c (Proc.devRef .tc main_arg2) := s11_arg2 m ρ c
    _ = W9 m ρ c (Proc.devRef .tc main_arg2) := s10_arg2 m ρ c
    _ = W8 m ρ c (Proc.devRef .tc main_arg2) := s9_arg2 m ρ c
    _ = W7 m ρ c (Proc.devRef .tc main_arg2) := s8_arg2 m ρ c
    _ = W6 m ρ c (Proc.devRef .tc main_arg2) := s7_arg2 m ρ c
    _ = W5 m ρ c (Proc.devRef .tc main_arg2) := s6_arg2 m ρ c
    _ = W4 m ρ c (Proc.devRef .tc main_arg2) := s5_arg2 m ρ c
    _ = W3 m ρ c (Proc.devRef .tc main_arg2) := s4_arg2 m ρ c
    _ = W2 m ρ c (Proc.devRef .tc main_arg2) := s3_arg2 m ρ c
    _ = W1 m ρ c (Proc.devRef .tc main_arg2) := s2_arg2 m ρ c
    _ = W0 m ρ c (Proc.devRef .tc main_arg2) := s1_arg2 m ρ c
    _ = m ((c : Thread nD τ).loc main_arg2) := rfl
theorem arg9_at17 (c : Dev nD) : W17 m ρ c (Proc.devRef .tc main_arg9) = m ((c : Thread nD τ).loc main_arg9) := by
  calc W17 m ρ c (Proc.devRef .tc main_arg9)
    _ = W16 m ρ c (Proc.devRef .tc main_arg9) := s17_arg9 m ρ c
    _ = W15 m ρ c (Proc.devRef .tc main_arg9) := s16_arg9 m ρ c
    _ = W14 m ρ c (Proc.devRef .tc main_arg9) := s15_arg9 m ρ c
    _ = W13 m ρ c (Proc.devRef .tc main_arg9) := s14_arg9 m ρ c
    _ = W12 m ρ c (Proc.devRef .tc main_arg9) := s13_arg9 m ρ c
    _ = W11 m ρ c (Proc.devRef .tc main_arg9) := s12_arg9 m ρ c
    _ = W10 m ρ c (Proc.devRef .tc main_arg9) := s11_arg9 m ρ c
    _ = W9 m ρ c (Proc.devRef .tc main_arg9) := s10_arg9 m ρ c
    _ = W8 m ρ c (Proc.devRef .tc main_arg9) := s9_arg9 m ρ c
    _ = W7 m ρ c (Proc.devRef .tc main_arg9) := s8_arg9 m ρ c
    _ = W6 m ρ c (Proc.devRef .tc main_arg9) := s7_arg9 m ρ c
    _ = W5 m ρ c (Proc.devRef .tc main_arg9) := s6_arg9 m ρ c
    _ = W4 m ρ c (Proc.devRef .tc main_arg9) := s5_arg9 m ρ c
    _ = W3 m ρ c (Proc.devRef .tc main_arg9) := s4_arg9 m ρ c
    _ = W2 m ρ c (Proc.devRef .tc main_arg9) := s3_arg9 m ρ c
    _ = W1 m ρ c (Proc.devRef .tc main_arg9) := s2_arg9 m ρ c
    _ = W0 m ρ c (Proc.devRef .tc main_arg9) := s1_arg9 m ρ c
    _ = m ((c : Thread nD τ).loc main_arg9) := rfl
theorem arg10_at17 (c : Dev nD) : W17 m ρ c (Proc.devRef .tc main_arg10) = m ((c : Thread nD τ).loc main_arg10) := by
  calc W17 m ρ c (Proc.devRef .tc main_arg10)
    _ = W16 m ρ c (Proc.devRef .tc main_arg10) := s17_arg10 m ρ c
    _ = W15 m ρ c (Proc.devRef .tc main_arg10) := s16_arg10 m ρ c
    _ = W14 m ρ c (Proc.devRef .tc main_arg10) := s15_arg10 m ρ c
    _ = W13 m ρ c (Proc.devRef .tc main_arg10) := s14_arg10 m ρ c
    _ = W12 m ρ c (Proc.devRef .tc main_arg10) := s13_arg10 m ρ c
    _ = W11 m ρ c (Proc.devRef .tc main_arg10) := s12_arg10 m ρ c
    _ = W10 m ρ c (Proc.devRef .tc main_arg10) := s11_arg10 m ρ c
    _ = W9 m ρ c (Proc.devRef .tc main_arg10) := s10_arg10 m ρ c
    _ = W8 m ρ c (Proc.devRef .tc main_arg10) := s9_arg10 m ρ c
    _ = W7 m ρ c (Proc.devRef .tc main_arg10) := s8_arg10 m ρ c
    _ = W6 m ρ c (Proc.devRef .tc main_arg10) := s7_arg10 m ρ c
    _ = W5 m ρ c (Proc.devRef .tc main_arg10) := s6_arg10 m ρ c
    _ = W4 m ρ c (Proc.devRef .tc main_arg10) := s5_arg10 m ρ c
    _ = W3 m ρ c (Proc.devRef .tc main_arg10) := s4_arg10 m ρ c
    _ = W2 m ρ c (Proc.devRef .tc main_arg10) := s3_arg10 m ρ c
    _ = W1 m ρ c (Proc.devRef .tc main_arg10) := s2_arg10 m ρ c
    _ = W0 m ρ c (Proc.devRef .tc main_arg10) := s1_arg10 m ρ c
    _ = m ((c : Thread nD τ).loc main_arg10) := rfl
theorem v3_from1_at2 (c : Dev nD) : W2 m ρ c (Proc.devRef .tc main_v3) = W1 m ρ c (Proc.devRef .tc main_v3) := by
  calc W2 m ρ c (Proc.devRef .tc main_v3)
    _ = W1 m ρ c (Proc.devRef .tc main_v3) := s2_v3 m ρ c
theorem v3_from1_at7 (c : Dev nD) : W7 m ρ c (Proc.devRef .tc main_v3) = W1 m ρ c (Proc.devRef .tc main_v3) := by
  calc W7 m ρ c (Proc.devRef .tc main_v3)
    _ = W6 m ρ c (Proc.devRef .tc main_v3) := s7_v3 m ρ c
    _ = W5 m ρ c (Proc.devRef .tc main_v3) := s6_v3 m ρ c
    _ = W4 m ρ c (Proc.devRef .tc main_v3) := s5_v3 m ρ c
    _ = W3 m ρ c (Proc.devRef .tc main_v3) := s4_v3 m ρ c
    _ = W2 m ρ c (Proc.devRef .tc main_v3) := s3_v3 m ρ c
    _ = W1 m ρ c (Proc.devRef .tc main_v3) := s2_v3 m ρ c
theorem v3_from1_at12 (c : Dev nD) : W12 m ρ c (Proc.devRef .tc main_v3) = W1 m ρ c (Proc.devRef .tc main_v3) := by
  calc W12 m ρ c (Proc.devRef .tc main_v3)
    _ = W11 m ρ c (Proc.devRef .tc main_v3) := s12_v3 m ρ c
    _ = W10 m ρ c (Proc.devRef .tc main_v3) := s11_v3 m ρ c
    _ = W9 m ρ c (Proc.devRef .tc main_v3) := s10_v3 m ρ c
    _ = W8 m ρ c (Proc.devRef .tc main_v3) := s9_v3 m ρ c
    _ = W7 m ρ c (Proc.devRef .tc main_v3) := s8_v3 m ρ c
    _ = W6 m ρ c (Proc.devRef .tc main_v3) := s7_v3 m ρ c
    _ = W5 m ρ c (Proc.devRef .tc main_v3) := s6_v3 m ρ c
    _ = W4 m ρ c (Proc.devRef .tc main_v3) := s5_v3 m ρ c
    _ = W3 m ρ c (Proc.devRef .tc main_v3) := s4_v3 m ρ c
    _ = W2 m ρ c (Proc.devRef .tc main_v3) := s3_v3 m ρ c
    _ = W1 m ρ c (Proc.devRef .tc main_v3) := s2_v3 m ρ c
theorem v28_from1_at2 (c : Dev nD) : W2 m ρ c (Proc.devRef .tc main_v28) = W1 m ρ c (Proc.devRef .tc main_v28) := by
  calc W2 m ρ c (Proc.devRef .tc main_v28)
    _ = W1 m ρ c (Proc.devRef .tc main_v28) := s2_v28 m ρ c
theorem v28_from1_at7 (c : Dev nD) : W7 m ρ c (Proc.devRef .tc main_v28) = W1 m ρ c (Proc.devRef .tc main_v28) := by
  calc W7 m ρ c (Proc.devRef .tc main_v28)
    _ = W6 m ρ c (Proc.devRef .tc main_v28) := s7_v28 m ρ c
    _ = W5 m ρ c (Proc.devRef .tc main_v28) := s6_v28 m ρ c
    _ = W4 m ρ c (Proc.devRef .tc main_v28) := s5_v28 m ρ c
    _ = W3 m ρ c (Proc.devRef .tc main_v28) := s4_v28 m ρ c
    _ = W2 m ρ c (Proc.devRef .tc main_v28) := s3_v28 m ρ c
    _ = W1 m ρ c (Proc.devRef .tc main_v28) := s2_v28 m ρ c
theorem v28_from1_at12 (c : Dev nD) : W12 m ρ c (Proc.devRef .tc main_v28) = W1 m ρ c (Proc.devRef .tc main_v28) := by
  calc W12 m ρ c (Proc.devRef .tc main_v28)
    _ = W11 m ρ c (Proc.devRef .tc main_v28) := s12_v28 m ρ c
    _ = W10 m ρ c (Proc.devRef .tc main_v28) := s11_v28 m ρ c
    _ = W9 m ρ c (Proc.devRef .tc main_v28) := s10_v28 m ρ c
    _ = W8 m ρ c (Proc.devRef .tc main_v28) := s9_v28 m ρ c
    _ = W7 m ρ c (Proc.devRef .tc main_v28) := s8_v28 m ρ c
    _ = W6 m ρ c (Proc.devRef .tc main_v28) := s7_v28 m ρ c
    _ = W5 m ρ c (Proc.devRef .tc main_v28) := s6_v28 m ρ c
    _ = W4 m ρ c (Proc.devRef .tc main_v28) := s5_v28 m ρ c
    _ = W3 m ρ c (Proc.devRef .tc main_v28) := s4_v28 m ρ c
    _ = W2 m ρ c (Proc.devRef .tc main_v28) := s3_v28 m ρ c
    _ = W1 m ρ c (Proc.devRef .tc main_v28) := s2_v28 m ρ c
theorem v29_from2_at5 (c : Dev nD) : W5 m ρ c (Proc.devRef .tc main_v29) = W2 m ρ c (Proc.devRef .tc main_v29) := by
  calc W5 m ρ c (Proc.devRef .tc main_v29)
    _ = W4 m ρ c (Proc.devRef .tc main_v29) := s5_v29 m ρ c
    _ = W3 m ρ c (Proc.devRef .tc main_v29) := s4_v29 m ρ c
    _ = W2 m ρ c (Proc.devRef .tc main_v29) := s3_v29 m ρ c
theorem v29_from2_at10 (c : Dev nD) : W10 m ρ c (Proc.devRef .tc main_v29) = W2 m ρ c (Proc.devRef .tc main_v29) := by
  calc W10 m ρ c (Proc.devRef .tc main_v29)
    _ = W9 m ρ c (Proc.devRef .tc main_v29) := s10_v29 m ρ c
    _ = W8 m ρ c (Proc.devRef .tc main_v29) := s9_v29 m ρ c
    _ = W7 m ρ c (Proc.devRef .tc main_v29) := s8_v29 m ρ c
    _ = W6 m ρ c (Proc.devRef .tc main_v29) := s7_v29 m ρ c
    _ = W5 m ρ c (Proc.devRef .tc main_v29) := s6_v29 m ρ c
    _ = W4 m ρ c (Proc.devRef .tc main_v29) := s5_v29 m ρ c
    _ = W3 m ρ c (Proc.devRef .tc main_v29) := s4_v29 m ρ c
    _ = W2 m ρ c (Proc.devRef .tc main_v29) := s3_v29 m ρ c
theorem v29_from2_at15 (c : Dev nD) : W15 m ρ c (Proc.devRef .tc main_v29) = W2 m ρ c (Proc.devRef .tc main_v29) := by
  calc W15 m ρ c (Proc.devRef .tc main_v29)
    _ = W14 m ρ c (Proc.devRef .tc main_v29) := s15_v29 m ρ c
    _ = W13 m ρ c (Proc.devRef .tc main_v29) := s14_v29 m ρ c
    _ = W12 m ρ c (Proc.devRef .tc main_v29) := s13_v29 m ρ c
    _ = W11 m ρ c (Proc.devRef .tc main_v29) := s12_v29 m ρ c
    _ = W10 m ρ c (Proc.devRef .tc main_v29) := s11_v29 m ρ c
    _ = W9 m ρ c (Proc.devRef .tc main_v29) := s10_v29 m ρ c
    _ = W8 m ρ c (Proc.devRef .tc main_v29) := s9_v29 m ρ c
    _ = W7 m ρ c (Proc.devRef .tc main_v29) := s8_v29 m ρ c
    _ = W6 m ρ c (Proc.devRef .tc main_v29) := s7_v29 m ρ c
    _ = W5 m ρ c (Proc.devRef .tc main_v29) := s6_v29 m ρ c
    _ = W4 m ρ c (Proc.devRef .tc main_v29) := s5_v29 m ρ c
    _ = W3 m ρ c (Proc.devRef .tc main_v29) := s4_v29 m ρ c
    _ = W2 m ρ c (Proc.devRef .tc main_v29) := s3_v29 m ρ c

end Cert.Gcn.Carry

end
-- ==== Proof.KernelWalk.lean ====
/-
  The kernel's result array read back through @main: the last stretch of host operations applied to what the third layer's
  bias-and-relu region leaves, that region reading what the third layer's message region and scatter leave, and so on back
  to the argument arrays.
-/
import proofs.«164660_j53764400611947_1_alg».proof.Proof.Gen.KernelIdeal.Frame
import proofs.«164660_j53764400611947_1_alg».proof.Proof.Terms
import proofs.«164660_j53764400611947_1_alg».proof.Proof.RegionMsg
import proofs.«164660_j53764400611947_1_alg».proof.Proof.RegionBias
import proofs.«164660_j53764400611947_1_alg».proof.Proof.Carry
import Idealize.ShloMosaic.Lib.StableHlo.Run

set_option maxRecDepth 16384

noncomputable section

namespace Cert.Gcn.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The pieces of a layer as functions of what the stretches read -/

/-- The rows a layer gathers and weights: from the layer's input, the source words and the message weights. -/
def scaleOf (h : FVec Ideal S100000x30 .f32) (s : IVec S3300000 32) (w : FVec Ideal S3300000 .f32) :
    FVec Ideal S3300000x30 .f32 :=
  mulf (F := Ideal) (Host.gather gather_S100000x30_S3300000x1_S3300000x30_1_0_n_n_0_1_130 h (Cert.Gcn.K.wrapCol s))
    (broadcastInDim S3300000x30 ![0, 1] bcast_S3300000x1_S3300000x30_0_1 (broadcastInDim S3300000x1 ![0] bcast_S3300000_S3300000x1_0 w))

/-- Rows padded with 1376 rows of an integer word read as a float. -/
def padRows (u : FVec Ideal S3300000x30 .f32) (z : IVec S_ 32) : FVec Ideal S3301376x30 .f32 :=
  pad S3301376x30 ![0, 0] ![1376, 0] ![0, 0] u (sitofp (F := Ideal) .f32 z) pads_S3300000x30_S3301376x30_013760_000 h_S_

/-- The destination words padded with 1376 copies of a word. -/
def padDst (d : IVec S3300000 32) (z : IVec S_ 32) : IVec S3301376 32 :=
  pad S3301376 ![0] ![1376] ![0] d (id z) pads_S3300000_S3301376_013760 h_S_

/-- The sum of a region's rows into the nodes their padded destination words name. -/
def sumRows (p : IVec S3301376 32) (u : FVec Ideal S3301376x30 .f32) : FVec Ideal S100000x30 .f32 :=
  Host.scatterAdd (F := Ideal) scatter_S100000x30_S3301376x1_S3301376x30_1_0_0_1
    (broadcastInDim S100000x30 ![] bcast_S_S100000x30 (constant (F := Ideal) S_ .f32 0x00000000#32))
    (broadcastInDim S3301376x1 ![0] bcast_S3301376_S3301376x1_0 p) u

/-- The bias as a one-row array. -/
def biasRow (b : FVec Ideal S30 .f32) : FVec Ideal S1x30 .f32 := shapeCast S1x30 b shapeCasts_S30_S1x30

/-- A layer is these pieces composed. -/
theorem layer_eq (x1 : IVec S2x3200000 32) (h : FVec Ideal S100000x30 .f32) (W : FVec Ideal S30x30 .f32) (b : FVec Ideal S30 .f32) :
    Cert.Gcn.K.layer x1 h W b
      = Cert.Gcn.K.biasRelu
          (sumRows (padDst (Cert.Gcn.K.dst x1) (constantI S_ 32 0#32))
            (Cert.Gcn.K.rowsTimes (padRows (scaleOf h (Cert.Gcn.K.src x1) (Cert.Gcn.K.norm x1)) (constantI S_ 32 0#32)) W))
          (biasRow b) := rfl

/-! ## The first stretch: sources, destinations and weights from the edge array -/

theorem src_step (V : Valuation τ sig (Elt Ideal)) :
    StableHlo.after hostOps0 V (Proc.devRef .tc main_v3) = Cert.Gcn.K.src (V (Proc.devRef .tc main_arg1)) := by
  after_results_simp
  rfl

theorem dst_step (V : Valuation τ sig (Elt Ideal)) :
    StableHlo.after hostOps0 V (Proc.devRef .tc main_v6) = Cert.Gcn.K.dst (V (Proc.devRef .tc main_arg1)) := by
  after_results_simp
  rfl

theorem norm_step (V : Valuation τ sig (Elt Ideal)) :
    StableHlo.after hostOps0 V (Proc.devRef .tc main_v28) = Cert.Gcn.K.norm (V (Proc.devRef .tc main_arg1)) := by
  after_results_simp
  rfl

theorem c5_step (V : Valuation τ sig (Elt Ideal)) :
    StableHlo.after hostOps0 V (Proc.devRef .tc main_c_5) = constantI S_ 32 0#32 := by
  after_results_simp

theorem padDst_step (V : Valuation τ sig (Elt Ideal)) :
    StableHlo.after hostOps0_1 V (Proc.devRef .tc main_v29)
      = padDst (V (Proc.devRef .tc main_v6)) (V (Proc.devRef .tc main_c_5)) := by
  after_results
  rfl

theorem v3_at1 (c : Dev nD) :
    W1 (F := Ideal) m ρ c (Proc.devRef .tc main_v3) = Cert.Gcn.K.src (m ((c : Thread nD τ).loc main_arg1)) :=
  src_step (W0 m ρ c)

theorem v6_at1 (c : Dev nD) :
    W1 (F := Ideal) m ρ c (Proc.devRef .tc main_v6) = Cert.Gcn.K.dst (m ((c : Thread nD τ).loc main_arg1)) :=
  dst_step (W0 m ρ c)

theorem v28_at1 (c : Dev nD) :
    W1 (F := Ideal) m ρ c (Proc.devRef .tc main_v28) = Cert.Gcn.K.norm (m ((c : Thread nD τ).loc main_arg1)) :=
  norm_step (W0 m ρ c)

theorem c5_at1 (c : Dev nD) :
    W1 (F := Ideal) m ρ c (Proc.devRef .tc main_c_5) = constantI S_ 32 0#32 :=
  c5_step (W0 m ρ c)

theorem v29_at2 (c : Dev nD) :
    W2 (F := Ideal) m ρ c (Proc.devRef .tc main_v29)
      = padDst (Cert.Gcn.K.dst (m ((c : Thread nD τ).loc main_arg1))) (constantI S_ 32 0#32) := by
  refine (padDst_step (W1 m ρ c)).trans ?_
  rw [v6_at1 m ρ c, c5_at1 m ρ c]

/-! ## Layer 1 -/

theorem scale_step1 (V : Valuation τ sig (Elt Ideal)) :
    StableHlo.after hostOps0_2 V (Proc.devRef .tc main_v39)
      = scaleOf (V (Proc.devRef .tc main_arg0)) (V (Proc.devRef .tc main_v3)) (V (Proc.devRef .tc main_v28)) := by
  after_results_simp
  rfl

theorem zero_step1 (V : Valuation τ sig (Elt Ideal)) :
    StableHlo.after hostOps0_2 V (Proc.devRef .tc main_c_8) = constantI S_ 32 0#32 := by
  after_results

theorem pad_step1 (V : Valuation τ sig (Elt Ideal)) :
    StableHlo.after hostOps0_3 V (Proc.devRef .tc main_v40)
      = padRows (V (Proc.devRef .tc main_v39)) (V (Proc.devRef .tc main_c_8)) := by
  after_results
  rfl

theorem sum_step1 (V : Valuation τ sig (Elt Ideal)) :
    StableHlo.after hostOps1 V (Proc.devRef .tc main_v44)
      = sumRows (V (Proc.devRef .tc main_v29)) (V (Proc.devRef .tc main_v41)) := by
  after_results
  rfl

theorem bias_step1 (V : Valuation τ sig (Elt Ideal)) :
    StableHlo.after hostOps1 V (Proc.devRef .tc main_v45) = biasRow (V (Proc.devRef .tc main_arg4)) := by
  after_results
  rfl

/-- The rows the layer's first region multiplies. -/
theorem rows1 (c : Dev nD) :
    W4 (F := Ideal) m ρ c (Proc.devRef .tc main_v40)
      = padRows (scaleOf (m ((c : Thread nD τ).loc main_arg0)) (Cert.Gcn.K.src (m ((c : Thread nD τ).loc main_arg1)))
          (Cert.Gcn.K.norm (m ((c : Thread nD τ).loc main_arg1)))) (constantI S_ 32 0#32) := by
  refine (pad_step1 (W3 m ρ c)).trans ?_
  rw [show W3 (F := Ideal) m ρ c (Proc.devRef .tc main_v39) = _ from scale_step1 (W2 m ρ c),
    show W3 (F := Ideal) m ρ c (Proc.devRef .tc main_c_8) = _ from zero_step1 (W2 m ρ c),
    Cert.Gcn.Carry.arg0_at2 m ρ c, Cert.Gcn.Carry.v3_from1_at2 m ρ c, Cert.Gcn.Carry.v28_from1_at2 m ρ c, v3_at1 m ρ c, v28_at1 m ρ c]

/-- What the layer's first region leaves. -/
theorem msg1 (c : Dev nD) :
    W5 (F := Ideal) m ρ c (Proc.devRef .tc main_v41)
      = Cert.Gcn.K.rowsTimes
          (padRows (scaleOf (m ((c : Thread nD τ).loc main_arg0)) (Cert.Gcn.K.src (m ((c : Thread nD τ).loc main_arg1)))
            (Cert.Gcn.K.norm (m ((c : Thread nD τ).loc main_arg1)))) (constantI S_ 32 0#32))
          (m ((c : Thread nD τ).loc main_arg3)) := by
  refine ((W5_arr m ρ c 2).trans (Cert.Gcn.RegionMsg.arr0 (V4 m ρ) c)).trans ?_
  show Cert.Gcn.K.rowsTimes (W4 (F := Ideal) m ρ c (Proc.devRef .tc main_v40)) (W4 (F := Ideal) m ρ c (Proc.devRef .tc main_arg3)) = _
  rw [rows1 m ρ c, Cert.Gcn.Carry.arg3_at4 m ρ c]

/-- The layer's output. -/
theorem layer1 (c : Dev nD) :
    W7 (F := Ideal) m ρ c (Proc.devRef .tc main_v46)
      = Cert.Gcn.K.layer (m ((c : Thread nD τ).loc main_arg1)) (m ((c : Thread nD τ).loc main_arg0))
          (m ((c : Thread nD τ).loc main_arg3)) (m ((c : Thread nD τ).loc main_arg4)) := by
  refine ((W7_arr m ρ c 2).trans (Cert.Gcn.RegionBias.arr1 (V6 m ρ) c)).trans ?_
  show Cert.Gcn.K.biasRelu (W6 (F := Ideal) m ρ c (Proc.devRef .tc main_v44)) (W6 (F := Ideal) m ρ c (Proc.devRef .tc main_v45)) = _
  rw [show W6 (F := Ideal) m ρ c (Proc.devRef .tc main_v44) = _ from sum_step1 (W5 m ρ c),
    show W6 (F := Ideal) m ρ c (Proc.devRef .tc main_v45) = _ from bias_step1 (W5 m ρ c),
    msg1 m ρ c, Cert.Gcn.Carry.v29_from2_at5 m ρ c, v29_at2 m ρ c, Cert.Gcn.Carry.arg4_at5 m ρ c, layer_eq]

/-! ## Layer 2 -/

theorem scale_step2 (V : Valuation τ sig (Elt Ideal)) :
    StableHlo.after hostOps2 V (Proc.devRef .tc main_v56)
      = scaleOf (V (Proc.devRef .tc main_v46)) (V (Proc.devRef .tc main_v3)) (V (Proc.devRef .tc main_v28)) := by
  after_results_simp
  rfl

theorem zero_step2 (V : Valuation τ sig (Elt Ideal)) :
    StableHlo.after hostOps2 V (Proc.devRef .tc main_c_12) = constantI S_ 32 0#32 := by
  after_results

theorem pad_step2 (V : Valuation τ sig (Elt Ideal)) :
    StableHlo.after hostOps2_1 V (Proc.devRef .tc main_v57)
      = padRows (V (Proc.devRef .tc main_v56)) (V (Proc.devRef .tc main_c_12)) := by
  after_results
  rfl

theorem sum_step2 (V : Valuation τ sig (Elt Ideal)) :
    StableHlo.after hostOps3 V (Proc.devRef .tc main_v61)
      = sumRows (V (Proc.devRef .tc main_v29)) (V (Proc.devRef .tc main_v58)) := by
  after_results
  rfl

theorem bias_step2 (V : Valuation τ sig (Elt Ideal)) :
    StableHlo.after hostOps3 V (Proc.devRef .tc main_v62) = biasRow (V (Proc.devRef .tc main_arg6)) := by
  after_results
  rfl

/-- The rows the layer's first region multiplies. -/
theorem rows2 (c : Dev nD) :
    W9 (F := Ideal) m ρ c (Proc.devRef .tc main_v57)
      = padRows (scaleOf (W7 (F := Ideal) m ρ c (Proc.devRef .tc main_v46)) (Cert.Gcn.K.src (m ((c : Thread nD τ).loc main_arg1)))
          (Cert.Gcn.K.norm (m ((c : Thread nD τ).loc main_arg1)))) (constantI S_ 32 0#32) := by
  refine (pad_step2 (W8 m ρ c)).trans ?_
  rw [show W8 (F := Ideal) m ρ c (Proc.devRef .tc main_v56) = _ from scale_step2 (W7 m ρ c),
    show W8 (F := Ideal) m ρ c (Proc.devRef .tc main_c_12) = _ from zero_step2 (W7 m ρ c),
    Cert.Gcn.Carry.v3_from1_at7 m ρ c, Cert.Gcn.Carry.v28_from1_at7 m ρ c, v3_at1 m ρ c, v28_at1 m ρ c]

/-- What the layer's first region leaves. -/
theorem msg2 (c : Dev nD) :
    W10 (F := Ideal) m ρ c (Proc.devRef .tc main_v58)
      = Cert.Gcn.K.rowsTimes
          (padRows (scaleOf (W7 (F := Ideal) m ρ c (Proc.devRef .tc main_v46)) (Cert.Gcn.K.src (m ((c : Thread nD τ).loc main_arg1)))
            (Cert.Gcn.K.norm (m ((c : Thread nD τ).loc main_arg1)))) (constantI S_ 32 0#32))
          (m ((c : Thread nD τ).loc main_arg5)) := by
  refine ((W10_arr m ρ c 2).trans (Cert.Gcn.RegionMsg.arr2 (V9 m ρ) c)).trans ?_
  show Cert.Gcn.K.rowsTimes (W9 (F := Ideal) m ρ c (Proc.devRef .tc main_v57)) (W9 (F := Ideal) m ρ c (Proc.devRef .tc main_arg5)) = _
  rw [rows2 m ρ c, Cert.Gcn.Carry.arg5_at9 m ρ c]

/-- The layer's output. -/
theorem layer2 (c : Dev nD) :
    W12 (F := Ideal) m ρ c (Proc.devRef .tc main_v63)
      = Cert.Gcn.K.layer (m ((c : Thread nD τ).loc main_arg1)) (W7 (F := Ideal) m ρ c (Proc.devRef .tc main_v46))
          (m ((c : Thread nD τ).loc main_arg5)) (m ((c : Thread nD τ).loc main_arg6)) := by
  refine ((W12_arr m ρ c 2).trans (Cert.Gcn.RegionBias.arr3 (V11 m ρ) c)).trans ?_
  show Cert.Gcn.K.biasRelu (W11 (F := Ideal) m ρ c (Proc.devRef .tc main_v61)) (W11 (F := Ideal) m ρ c (Proc.devRef .tc main_v62)) = _
  rw [show W11 (F := Ideal) m ρ c (Proc.devRef .tc main_v61) = _ from sum_step2 (W10 m ρ c),
    show W11 (F := Ideal) m ρ c (Proc.devRef .tc main_v62) = _ from bias_step2 (W10 m ρ c),
    msg2 m ρ c, Cert.Gcn.Carry.v29_from2_at10 m ρ c, v29_at2 m ρ c, Cert.Gcn.Carry.arg6_at10 m ρ c, layer_eq]

/-! ## Layer 3 -/

theorem scale_step3 (V : Valuation τ sig (Elt Ideal)) :
    StableHlo.after hostOps4 V (Proc.devRef .tc main_v73)
      = scaleOf (V (Proc.devRef .tc main_v63)) (V (Proc.devRef .tc main_v3)) (V (Proc.devRef .tc main_v28)) := by
  after_results_simp
  rfl

theorem zero_step3 (V : Valuation τ sig (Elt Ideal)) :
    StableHlo.after hostOps4 V (Proc.devRef .tc main_c_16) = constantI S_ 32 0#32 := by
  after_results

theorem pad_step3 (V : Valuation τ sig (Elt Ideal)) :
    StableHlo.after hostOps4_1 V (Proc.devRef .tc main_v74)
      = padRows (V (Proc.devRef .tc main_v73)) (V (Proc.devRef .tc main_c_16)) := by
  after_results
  rfl

theorem sum_step3 (V : Valuation τ sig (Elt Ideal)) :
    StableHlo.after hostOps5 V (Proc.devRef .tc main_v78)
      = sumRows (V (Proc.devRef .tc main_v29)) (V (Proc.devRef .tc main_v75)) := by
  after_results
  rfl

theorem bias_step3 (V : Valuation τ sig (Elt Ideal)) :
    StableHlo.after hostOps5 V (Proc.devRef .tc main_v79) = biasRow (V (Proc.devRef .tc main_arg8)) := by
  after_results
  rfl

/-- The rows the layer's first region multiplies. -/
theorem rows3 (c : Dev nD) :
    W14 (F := Ideal) m ρ c (Proc.devRef .tc main_v74)
      = padRows (scaleOf (W12 (F := Ideal) m ρ c (Proc.devRef .tc main_v63)) (Cert.Gcn.K.src (m ((c : Thread nD τ).loc main_arg1)))
          (Cert.Gcn.K.norm (m ((c : Thread nD τ).loc main_arg1)))) (constantI S_ 32 0#32) := by
  refine (pad_step3 (W13 m ρ c)).trans ?_
  rw [show W13 (F := Ideal) m ρ c (Proc.devRef .tc main_v73) = _ from scale_step3 (W12 m ρ c),
    show W13 (F := Ideal) m ρ c (Proc.devRef .tc main_c_16) = _ from zero_step3 (W12 m ρ c),
    Cert.Gcn.Carry.v3_from1_at12 m ρ c, Cert.Gcn.Carry.v28_from1_at12 m ρ c, v3_at1 m ρ c, v28_at1 m ρ c]

/-- What the layer's first region leaves. -/
theorem msg3 (c : Dev nD) :
    W15 (F := Ideal) m ρ c (Proc.devRef .tc main_v75)
      = Cert.Gcn.K.rowsTimes
          (padRows (scaleOf (W12 (F := Ideal) m ρ c (Proc.devRef .tc main_v63)) (Cert.Gcn.K.src (m ((c : Thread nD τ).loc main_arg1)))
            (Cert.Gcn.K.norm (m ((c : Thread nD τ).loc main_arg1)))) (constantI S_ 32 0#32))
          (m ((c : Thread nD τ).loc main_arg7)) := by
  refine ((W15_arr m ρ c 2).trans (Cert.Gcn.RegionMsg.arr4 (V14 m ρ) c)).trans ?_
  show Cert.Gcn.K.rowsTimes (W14 (F := Ideal) m ρ c (Proc.devRef .tc main_v74)) (W14 (F := Ideal) m ρ c (Proc.devRef .tc main_arg7)) = _
  rw [rows3 m ρ c, Cert.Gcn.Carry.arg7_at14 m ρ c]

/-- The layer's output. -/
theorem layer3 (c : Dev nD) :
    W17 (F := Ideal) m ρ c (Proc.devRef .tc main_v80)
      = Cert.Gcn.K.layer (m ((c : Thread nD τ).loc main_arg1)) (W12 (F := Ideal) m ρ c (Proc.devRef .tc main_v63))
          (m ((c : Thread nD τ).loc main_arg7)) (m ((c : Thread nD τ).loc main_arg8)) := by
  refine ((W17_arr m ρ c 2).trans (Cert.Gcn.RegionBias.arr5 (V16 m ρ) c)).trans ?_
  show Cert.Gcn.K.biasRelu (W16 (F := Ideal) m ρ c (Proc.devRef .tc main_v78)) (W16 (F := Ideal) m ρ c (Proc.devRef .tc main_v79)) = _
  rw [show W16 (F := Ideal) m ρ c (Proc.devRef .tc main_v78) = _ from sum_step3 (W15 m ρ c),
    show W16 (F := Ideal) m ρ c (Proc.devRef .tc main_v79) = _ from bias_step3 (W15 m ρ c),
    msg3 m ρ c, Cert.Gcn.Carry.v29_from2_at15 m ρ c, v29_at2 m ρ c, Cert.Gcn.Carry.arg8_at15 m ρ c, layer_eq]

/-! ## The last stretch -/

theorem tail_step (V : Valuation τ sig (Elt Ideal)) :
    StableHlo.after hostOps6 V (Proc.devRef .tc main_v87)
      = Cert.Gcn.K.tail (V (Proc.devRef .tc main_arg2)) (V (Proc.devRef .tc main_v80))
          (V (Proc.devRef .tc main_arg9)) (V (Proc.devRef .tc main_arg10)) := by
  after_results
  rfl

/-! ## The whole walk -/

/-- The result array at the last boundary is the tail of three layers of the argument arrays. -/
theorem result (c : Dev nD) :
    W18 (F := Ideal) m ρ c (Proc.devRef .tc main_v87)
      = Cert.Gcn.K.tail (m ((c : Thread nD τ).loc main_arg2))
          (Cert.Gcn.K.layer (m ((c : Thread nD τ).loc main_arg1))
            (Cert.Gcn.K.layer (m ((c : Thread nD τ).loc main_arg1))
              (Cert.Gcn.K.layer (m ((c : Thread nD τ).loc main_arg1)) (m ((c : Thread nD τ).loc main_arg0)) (m ((c : Thread nD τ).loc main_arg3)) (m ((c : Thread nD τ).loc main_arg4)))
              (m ((c : Thread nD τ).loc main_arg5)) (m ((c : Thread nD τ).loc main_arg6)))
            (m ((c : Thread nD τ).loc main_arg7)) (m ((c : Thread nD τ).loc main_arg8)))
          (m ((c : Thread nD τ).loc main_arg9)) (m ((c : Thread nD τ).loc main_arg10)) := by
  refine (tail_step (W17 m ρ c)).trans ?_
  rw [Cert.Gcn.Carry.arg2_at17 m ρ c, Cert.Gcn.Carry.arg9_at17 m ρ c, Cert.Gcn.Carry.arg10_at17 m ρ c,
    layer3 m ρ c, layer2 m ρ c, layer1 m ρ c]

end Cert.Gcn.Walk

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.LibScale.lean ====
/-
  Scaling by a nonnegative real inside the extended reals, and sums with a vanishing tail.

  A product does not distribute over a sum of extended reals in general (the sum may mix the two infinities), but it does
  when the factor is a real number r ≥ 0: then (Σ f) · r = Σ (f · r) for any finite family f. So a row scaled by such an r
  and then contracted with a column is the contraction scaled by r:
      Σ_k (a k · r) · w k = (Σ_k a k · w k) · r.
  The reciprocal square root of anything ≥ 1 is such a number: 0 at +∞, a positive real elsewhere.
  A sum over n + p indices whose last p terms vanish is the sum over the first n.
-/
import Idealize.ShloMosaic.PureOps.Ideal
import Idealize.ShloMosaic.PureOps.Ideal.Laws

noncomputable section

namespace Cert.LibScale

open Idealize.ShloMosaic

/-- An extended real that is a real number, not negative. -/
def NonnegReal (x : EReal) : Prop := ∃ r : ℝ, 0 ≤ r ∧ x = (r : EReal)

theorem NonnegReal.nonneg {x : EReal} (h : NonnegReal x) : 0 ≤ x := by
  obtain ⟨r, hr, rfl⟩ := h
  exact_mod_cast hr

theorem NonnegReal.ne_top {x : EReal} (h : NonnegReal x) : x ≠ ⊤ := by
  obtain ⟨r, -, rfl⟩ := h
  exact EReal.coe_ne_top r

/-- The product of two such numbers is one. -/
theorem NonnegReal.mul {x y : EReal} (hx : NonnegReal x) (hy : NonnegReal y) : NonnegReal (x * y) := by
  obtain ⟨r, hr, rfl⟩ := hx
  obtain ⟨s, hs, rfl⟩ := hy
  exact ⟨r * s, mul_nonneg hr hs, (EReal.coe_mul r s).symm⟩

/-- The reciprocal square root of an extended real at least 1: zero at +∞, the positive real 1/√r at a real r. -/
theorem rsqrt_nonnegReal {x : EReal} (hx : 1 ≤ x) : NonnegReal (Ideal.rsqrt x) := by
  induction x using EReal.rec with
  | bot => exact absurd hx (not_le.mpr (by simpa using EReal.bot_lt_coe 1))
  | coe r =>
    have hr : (1 : ℝ) ≤ r := by exact_mod_cast hx
    refine ⟨(Real.sqrt r)⁻¹, inv_nonneg.mpr (Real.sqrt_nonneg r), ?_⟩
    rw [Ideal.rsqrt_coe, if_neg (by linarith), if_neg (by linarith)]
  | top => exact ⟨0, le_refl 0, by rw [Ideal.rsqrt_top]; rfl⟩

/-- The pattern of the float one denotes the real number 1. -/
theorem ofBits_one : Ideal.ofBits .f32 0x3F800000#32 = ((1 : ℝ) : EReal) := by
  simp [Ideal.ofBits, Ideal.ieee, -EReal.coe_mul]; norm_num

/-- Scaling by a nonnegative real goes through any finite sum. -/
theorem sum_mul {ι : Type} (S : Finset ι) (f : ι → EReal) {n : EReal} (hn : NonnegReal n) :
    (∑ i ∈ S, f i) * n = ∑ i ∈ S, f i * n := by
  classical
  induction S using Finset.induction_on with
  | empty => simp
  | insert a s ha ih =>
    rw [Finset.sum_insert ha, Finset.sum_insert ha, EReal.right_distrib_of_nonneg_of_ne_top hn.nonneg hn.ne_top, ih]

/-- A row scaled entry by entry and then contracted with a column is the contraction, scaled. -/
theorem scaled_dot {K : Type} [Fintype K] (a w : K → EReal) {n : EReal} (hn : NonnegReal n) :
    ∑ k : K, (a k * n) * w k = (∑ k : K, a k * w k) * n := by
  rw [sum_mul Finset.univ _ hn]
  exact Finset.sum_congr rfl fun k _ => mul_right_comm (a k) n (w k)

/-- A sum over n' ≥ n indices whose terms from n on vanish is the sum over the first n. -/
theorem sum_castLE {n n' : ℕ} (h : n ≤ n') (g : Fin n' → EReal) (hz : ∀ i : Fin n', n ≤ i.val → g i = 0) :
    ∑ i : Fin n', g i = ∑ i : Fin n, g (Fin.castLE h i) := by
  obtain ⟨p, rfl⟩ := Nat.exists_eq_add_of_le h
  have htail : ∑ j : Fin p, g (Fin.natAdd n j) = 0 := Finset.sum_eq_zero fun j _ => hz _ (by simp)
  rw [Fin.sum_univ_add, htail, add_zero]
  exact Finset.sum_congr rfl fun i _ => congrArg g (Fin.ext rfl)

end Cert.LibScale

end
-- ==== Proof.LibRowsPad.lean ====
/-
  An accumulating row scatter with zero rows appended to its updates.

  Entry (r, c) of the result is the operand's entry plus the sum of the update entries (e, c) over the rows e whose start
  index is r. If the update rows from E on are zero rows they add nothing, whatever their start indices are: the scatter of
  the EP ≥ E rows is the scatter of the first E.
-/
import proofs.«164660_j53764400611947_1_alg».proof.Proof.LibRows
import proofs.«164660_j53764400611947_1_alg».proof.Proof.LibScale

noncomputable section

namespace Cert.LibRowsPad

open Idealize.ShloMosaic Idealize.ShloMosaic.ValueIdx Idealize.ShloMosaic.StableHlo.Predicate

theorem scatterAdd_rows_pad {φ : FTy} {N C E EP w : ℕ} (hle : E ≤ EP)
    (dP : ScatterDims ⟨2, ![N, C]⟩ ⟨2, ![EP, 1]⟩ ⟨2, ![EP, C]⟩)
    (huwP : dP.updateWindowDims = [1]) (hiwP : dP.insertedWindowDims = [0]) (hsdP : dP.scatterDimsToOperandDims = [0])
    (hivdP : dP.indexVectorDim = 1)
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ φ) (idxP : IVec ⟨2, ![EP, 1]⟩ w) (idx : IVec ⟨2, ![E, 1]⟩ w)
    (updP : FVec Ideal ⟨2, ![EP, C]⟩ φ) (upd : FVec Ideal ⟨2, ![E, C]⟩ φ)
    (hidx : ∀ e : Fin E, idxP (ixP (Fin.castLE hle e)) = idx (ixP e))
    (hlow : ∀ (e : Fin E) (c : Fin C), updP (ix2 (Fin.castLE hle e) c) = upd (ix2 e c))
    (hhigh : ∀ (e' : Fin EP) (c : Fin C), E ≤ e'.val → updP (ix2 e' c) = 0) :
    Host.scatterAdd dP x idxP updP = Host.scatterAdd d x idx upd := by
  funext i
  obtain ⟨r, c, rfl⟩ : ∃ (r : Fin N) (c : Fin C), i = ix2 r c := ⟨i 0, i 1, eq_ix2 i⟩
  rw [Cert.LibRows.scatterAdd_rows dP huwP hiwP hsdP hivdP, Cert.LibRows.scatterAdd_rows d huw hiw hsd hivd]
  congr 1
  rw [Finset.sum_filter, Finset.sum_filter]
  rw [Cert.LibScale.sum_castLE hle _ (fun e' he => by rw [hhigh e' c he]; exact ite_self 0)]
  exact Finset.sum_congr rfl fun e _ => by rw [hidx e, hlow e c]

end Cert.LibRowsPad

end
-- ==== Proof.Bridge.lean ====
/-
  A layer of the kernel is a layer of the reference.

  Both layers end in  max (agg (r, c) + b c, 0).  The reference's aggregate at (r, c) is the sum, over the messages e with
  destination r, of ((h W) at row src e, column c) · norm e; the kernel's is the sum, over the padded messages e' sent to r,
  of (row e' of the scaled and padded gather) · (column c of W).  For e' past the last message the row is zero and so is
  its product with W.  For a message e the row is (h at row src e) · norm e, and since norm e is a real number that is not
  negative, Σ_k (h (src e, k) · norm e) · W (k, c) = (Σ_k h (src e, k) · W (k, c)) · norm e.
-/
import proofs.«164660_j53764400611947_1_alg».proof.Proof.Terms
import proofs.«164660_j53764400611947_1_alg».proof.Proof.LibRows
import proofs.«164660_j53764400611947_1_alg».proof.Proof.LibDense
import proofs.«164660_j53764400611947_1_alg».proof.Proof.LibScale
import proofs.«164660_j53764400611947_1_alg».proof.Proof.LibRowsPad
import Idealize.ShloMosaic.Lib.KernelVsHost
import Idealize.ShloMosaic.Lib.StableHlo.Predicate
import Idealize.ShloMosaic.Lib.Pipeline.Value

noncomputable section

namespace Cert.Gcn

open Idealize.ShloMosaic Idealize.ShloMosaic.ValueIdx Idealize.ShloMosaic.StableHlo.Predicate
open Cert.LibScale (NonnegReal)

/-! ## Indices, and pointwise operations read at an index -/

theorem ij_eq_ix2 {n m : ℕ} (p : Fin n) (q : Fin m) : ij p q = ix2 p q := by
  funext a; match a with | ⟨0, _⟩ => rfl | ⟨1, _⟩ => rfl

theorem ofFin_eq_ix1 {n : ℕ} (p : Fin n) : Shape.Idx.ofFin p = ix1 p := by
  funext a; match a with | ⟨0, _⟩ => exact Fin.ext rfl

section Pointwise

variable {s : Shape}

theorem rsqrt_max_at (A B : FVec Ideal s .f32) (i : s.Idx) :
    Host.rsqrt (F := Ideal) (maximumf (F := Ideal) A B) i = Ideal.rsqrt (max (A i) (B i)) := rfl

theorem mulf_at (A B : FVec Ideal s .f32) (i : s.Idx) : mulf (F := Ideal) A B i = A i * B i := rfl

theorem addf_at (A B : FVec Ideal s .f32) (i : s.Idx) : addf (F := Ideal) A B i = A i + B i := rfl

theorem maximumf_at (A B : FVec Ideal s .f32) (i : s.Idx) : maximumf (F := Ideal) A B i = max (A i) (B i) := rfl

/-- A splat of a float pattern reads that pattern's value everywhere. -/
theorem splat_at (h : (⟨0, ![]⟩ : Shape).BroadcastsInDim s (![] : Fin 0 → Fin s.rank)) (w : BitVec 32) (i : s.Idx) :
    broadcastInDim s ![] h (constant (F := Ideal) ⟨0, ![]⟩ .f32 w) i = Ideal.ofBits .f32 w := rfl

/-- A gather reads its operand somewhere. -/
theorem gather_at {α : Type} {si t : Shape} {w : ℕ} (d : GatherDims s si t) (x : s.Idx → α) (idx : IVec si w) (j : t.Idx) :
    Host.gather d x idx j = x (d.operandIdx j idx) := rfl

end Pointwise

theorem rowsTimes_at (X : FVec Ideal Cert.KernelIdeal.S3301376x30 .f32) (W : FVec Ideal Cert.KernelIdeal.S30x30 .f32)
    (e : Fin 3301376) (c : Fin 30) : K.rowsTimes X W (ix2 e c) = ∑ k : Fin 30, X (ix2 e k) * W (ix2 k c) := rfl

theorem biasRelu_at (A : FVec Ideal Cert.KernelIdeal.S100000x30 .f32) (b : FVec Ideal Cert.KernelIdeal.S1x30 .f32)
    (r : Fin 100000) (c : Fin 30) :
    K.biasRelu A b (ix2 r c) = max (A (ix2 r c) + b (ix2 (0 : Fin 1) c)) (Ideal.ofBits .f32 0x00000000#32) := rfl

section Kernel

open Cert.KernelIdeal Cert.KernelIdeal.Gen

/-! ## The message weights are real and not negative -/

/-- dinv at a node is the reciprocal square root of something at least 1. -/
theorem dinv_nonneg (x1 : IVec S2x3200000 32) (i : S100000.Idx) : NonnegReal (K.dinv x1 i) := by
  unfold K.dinv
  rw [rsqrt_max_at, splat_at]
  refine Cert.LibScale.rsqrt_nonnegReal (le_trans ?_ (le_max_right _ _))
  rw [Cert.LibScale.ofBits_one]
  exact le_of_eq EReal.coe_one.symm

/-- A message's weight is a product of two values of dinv. -/
theorem norm_nonneg (x1 : IVec S2x3200000 32) (i : S3300000.Idx) : NonnegReal (K.norm x1 i) := by
  unfold K.norm
  rw [mulf_at, gather_at, gather_at]
  exact (dinv_nonneg x1 _).mul (dinv_nonneg x1 _)

/-! ## The kernel's host operations read at an index -/

/-- Below the padding the padded destination column is the destination column. -/
theorem dstPadCol_low (x1 : IVec S2x3200000 32) (e : Fin 3300000) :
    K.dstPadCol x1 (ixP (Fin.castLE (by decide : 3300000 ≤ 3301376) e))
      = broadcastInDim S3300000x1 ![0] bcast_S3300000_S3300000x1_0 (K.dst x1) (ixP e) := by
  unfold K.dstPadCol
  rw [bcast_col1, bcast_col1]
  exact pad_apply_of_inside _ _ _ _ _ _ _ _ (Shape.Idx.ofFin e) (fun a => by
    match a with
    | ⟨0, _⟩ => show e.val = 0 + e.val * (0 + 1); omega)

/-- Below the padding a scaled row is the gathered row times the message's weight. -/
theorem scaledRows_low (x1 : IVec S2x3200000 32) (h : FVec Ideal S100000x30 .f32) (e : Fin 3300000) (k : Fin 30) :
    K.scaledRows x1 h (ix2 (Fin.castLE (by decide : 3300000 ≤ 3301376) e) k)
      = h (ix2 (Cert.LibRows.rowOf (by decide : 0 < 100000) (K.wrapCol (K.src x1)) e) k) * K.norm x1 (ix1 e) := by
  unfold K.scaledRows
  rw [pad_apply_of_inside _ _ _ _ _ _ _ _ (ix2 e k) (fun a => by
    match a with
    | ⟨0, _⟩ => show e.val = 0 + e.val * (0 + 1); omega
    | ⟨1, _⟩ => show k.val = 0 + k.val * (0 + 1); omega)]
  rw [mulf_at, Cert.LibRows.gather_rows _ rfl rfl rfl rfl rfl h _ (by decide : 0 < 100000) e k, ← ij_eq_ix2 e k, bcast_rows,
    ofFin_eq_ix1]

/-- From the padding on a scaled row is a zero row. -/
theorem scaledRows_high (x1 : IVec S2x3200000 32) (h : FVec Ideal S100000x30 .f32) (e' : Fin 3301376) (k : Fin 30)
    (he : 3300000 ≤ e'.val) : K.scaledRows x1 h (ix2 e' k) = 0 := by
  unfold K.scaledRows
  rw [pad_apply_of_not_inside _ _ _ _ _ _ _ _ (0 : Fin 2) (by
    show ¬(0 ≤ e'.val ∧ (e'.val - 0) % (0 + 1) = 0 ∧ (e'.val - 0) / (0 + 1) < 3300000)
    omega)]
  show (((0#32 : BitVec 32).toInt : ℝ) : EReal) = 0
  simp

end Kernel

/-! ## The aggregates agree -/

section Aggregate

open Cert.ReferenceIdeal Cert.ReferenceIdeal.Gen Cert.ReferenceIdeal.Read

/-- The kernel's aggregate over the padded messages is the reference's aggregate over the messages. -/
theorem agg_eq (x1 : IVec S2x3200000 32) (h : FVec Ideal S100000x30 .f32) (W : FVec Ideal S30x30 .f32) :
    Host.scatterAdd (F := Ideal) Cert.KernelIdeal.scatter_S100000x30_S3301376x1_S3301376x30_1_0_0_1
        (broadcastInDim Cert.KernelIdeal.S100000x30 ![] Cert.KernelIdeal.Gen.bcast_S_S100000x30 (constant (F := Ideal) Cert.KernelIdeal.S_ .f32 0x00000000#32))
        (K.dstPadCol x1) (K.rowsTimes (K.scaledRows x1 h) W)
      = Host.scatterAdd (F := Ideal) scatter_S100000x30_S3300000x1_S3300000x30_1_0_0_1 (val_main_v40 (F := Ideal)) (val_main_v41 (F := Ideal) x1)
        (mulf (F := Ideal)
          (Host.gather gather_S100000x30_S3300000x1_S3300000x30_1_0_n_n_0_1_130
            (Host.dotGeneral (F := Ideal) dot_S100000x30_S30x30_S100000x30_1_0_0_1_n_n none h W) (val_main_v35 (F := Ideal) x1))
          (val_main_v38 (F := Ideal) x1)) := by
  -- the reference's columns are the kernel's, operation for operation
  have e0 : val_main_v40 (F := Ideal)
      = broadcastInDim Cert.KernelIdeal.S100000x30 ![] Cert.KernelIdeal.Gen.bcast_S_S100000x30 (constant (F := Ideal) Cert.KernelIdeal.S_ .f32 0x00000000#32) := rfl
  have e1 : val_main_v35 (F := Ideal) x1 = K.wrapCol (K.src x1) := rfl
  have e2 : val_main_v41 (F := Ideal) x1
      = broadcastInDim Cert.KernelIdeal.S3300000x1 ![0] Cert.KernelIdeal.Gen.bcast_S3300000_S3300000x1_0 (K.dst x1) := rfl
  have e3 : val_main_v38 (F := Ideal) x1
      = broadcastInDim Cert.KernelIdeal.S3300000x30 ![0, 1] Cert.KernelIdeal.Gen.bcast_S3300000x1_S3300000x30_0_1
          (broadcastInDim Cert.KernelIdeal.S3300000x1 ![0] Cert.KernelIdeal.Gen.bcast_S3300000_S3300000x1_0 (K.norm x1)) := rfl
  rw [e0, e1, e2, e3]
  refine Cert.LibRowsPad.scatterAdd_rows_pad (by decide : 3300000 ≤ 3301376) _ rfl rfl rfl rfl _ rfl rfl rfl rfl _ _ _ _ _
    (dstPadCol_low x1) ?_ ?_
  · -- a message's row: the scale goes through the contraction with a column of W
    intro e c
    rw [rowsTimes_at, mulf_at, Cert.LibRows.gather_rows _ rfl rfl rfl rfl rfl _ _ (by decide : 0 < 100000) e c, ← ij_eq_ix2 e c,
      bcast_rows, ofFin_eq_ix1]
    unfold Host.dotGeneral
    rw [Cert.LibDense.dotGeneral_apply _ none _ rfl rfl rfl rfl rfl rfl h W, ← Cert.LibScale.scaled_dot _ _ (norm_nonneg x1 (ix1 e))]
    exact Finset.sum_congr rfl fun k _ => by rw [scaledRows_low]
  · -- a padding row: zero times anything is zero
    intro e' c he
    rw [rowsTimes_at]
    exact Finset.sum_eq_zero fun k _ => by rw [scaledRows_high x1 h e' k he, zero_mul]

end Aggregate

/-! ## The layers agree -/

theorem layer_eq (x1 : IVec Cert.KernelIdeal.S2x3200000 32) (h : FVec Ideal Cert.KernelIdeal.S100000x30 .f32)
    (W : FVec Ideal Cert.KernelIdeal.S30x30 .f32) (b : FVec Ideal Cert.KernelIdeal.S30 .f32) :
    K.layer x1 h W b = R.layer x1 h W b := by
  have ez : Cert.ReferenceIdeal.Read.val_main_call0_v0 (F := Ideal)
      = broadcastInDim Cert.ReferenceIdeal.S100000x30 ![] Cert.ReferenceIdeal.Gen.bcast_S_S100000x30 (constant (F := Ideal) Cert.ReferenceIdeal.S_ .f32 0x00000000#32) := rfl
  unfold K.layer R.layer
  rw [agg_eq x1 h W, ez]
  funext i
  obtain ⟨r, c, rfl⟩ : ∃ (r : Fin 100000) (c : Fin 30), i = ix2 r c := ⟨i 0, i 1, eq_ix2 i⟩
  rw [biasRelu_at, maximumf_at, addf_at, splat_at, shapeCast_addUnit_apply]
  rw [← ij_eq_ix2 r c, bcast_cols, ofFin_eq_ix1]
  refine congrArg (fun t => max (_ + b t) _) (funext fun a => ?_)
  match a with | ⟨0, _⟩ => rfl

theorem tail_eq (x2 : IVec Cert.KernelIdeal.S100000 32) (h : FVec Ideal Cert.KernelIdeal.S100000x30 .f32)
    (lw : FVec Ideal Cert.KernelIdeal.S30x1 .f32) (lb : FVec Ideal Cert.KernelIdeal.S1 .f32) :
    K.tail x2 h lw lb = R.tail x2 h lw lb := rfl

open Cert.ReferenceIdeal Cert.ReferenceIdeal.Gen Cert.ReferenceIdeal.Read in
/-- The reference's result is the tail of three of its layers. -/
theorem ref_eq (x0 : FVec Ideal S100000x30 .f32) (x1 : IVec S2x3200000 32) (x2 : IVec S100000 32) (x3 : FVec Ideal S30x30 .f32) (x4 : FVec Ideal S30 .f32)
    (x5 : FVec Ideal S30x30 .f32) (x6 : FVec Ideal S30 .f32) (x7 : FVec Ideal S30x30 .f32) (x8 : FVec Ideal S30 .f32) (x9 : FVec Ideal S30x1 .f32) (x10 : FVec Ideal S1 .f32) :
    val_main_v89 (F := Ideal) x0 x1 x2 x3 x4 x5 x6 x7 x8 x9 x10
      = R.tail x2 (R.layer x1 (R.layer x1 (R.layer x1 x0 x3 x4) x5 x6) x7 x8) x9 x10 := rfl

end Cert.Gcn

end
-- ==== Proof.lean ====
/-
  Three graph-convolution layers, a segment sum into graphs and a linear read-out: the kernel against the reference.

  The two programs derive the same source column, destination words and message weights norm e = dinv (src e) · dinv (dst e) from
  the edge array, by the same integer and float operations. In a layer the reference multiplies the node features by W first,
  gathers the product's rows, scales row e by norm e and sums the rows landing on each node; the kernel gathers the feature
  rows, scales them, appends 1376 zero rows (sent to node 0), multiplies every row by W in a region and sums. The two
  agree entry by entry: a gathered row of a product is the product of the gathered row; norm e is a real number that is not
  negative (dinv is rsqrt of something at least 1, hence 0 or a positive real), and multiplying by such a number distributes
  over any sum of extended reals; a zero row times W is a zero row and adds nothing to node 0. Bias, relu, segment sum and
  read-out are the same operations on both sides. No input need be finite for any of this.
-/
import proofs.«164660_j53764400611947_1_alg».proof.Defs
import proofs.«164660_j53764400611947_1_alg».proof.Proof.Gen.Kernel.Frame
import proofs.«164660_j53764400611947_1_alg».proof.Proof.Gen.KernelIdeal.Frame
import proofs.«164660_j53764400611947_1_alg».proof.Proof.Gen.ReferenceIdeal.Run
import proofs.«164660_j53764400611947_1_alg».proof.Proof.Gen.ReferenceIdeal.Read
import proofs.«164660_j53764400611947_1_alg».proof.Proof.Gen.Pre_finite_inputs
import proofs.«164660_j53764400611947_1_alg».proof.Proof.KernelRun
import proofs.«164660_j53764400611947_1_alg».proof.Proof.KernelWalk
import proofs.«164660_j53764400611947_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the tail of three layers of the arguments; the layers agree one by one. -/
theorem algebraic : Cert.algebraic_KernelIdeal_ReferenceIdeal := by
  intro m ρ m' ρ' _ hagree
  refine ⟨fun c => Cert.KernelIdeal.Gen.W18 (F := Ideal) m ρ c (Proc.devRef .tc Cert.KernelIdeal.main_v87),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v89_eq, Cert.Gcn.ref_eq, a0, a1, a2, a3, a4, a5, a6, a7, a8, a9, a10]
  rw [← Cert.Gcn.layer_eq, ← Cert.Gcn.layer_eq, ← Cert.Gcn.layer_eq, ← Cert.Gcn.tail_eq]
  exact (Cert.Gcn.Walk.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
